-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x91 : Shape := ⟨3, ![16, 1024, 91]⟩
abbrev S16x1024x4 : Shape := ⟨3, ![16, 1024, 4]⟩
abbrev S16x128 : Shape := ⟨2, ![16, 128]⟩
abbrev S16x128x4 : Shape := ⟨3, ![16, 128, 4]⟩
abbrev S_ : Shape := ⟨0, ![]⟩

class Facts : Prop where
  bcast_S_S16x1024x91 : S_.BroadcastsInDim S16x1024x91 (![] : Fin 0 → Fin S16x1024x91.rank)
  reducesTo_S16x1024x91_S_d0_1_2 : S16x1024x91.ReducesTo [0, 1, 2] S_
  h_S_ : 0 < S_.numel
  bcast_S_S16x1024x4 : S_.BroadcastsInDim S16x1024x4 (![] : Fin 0 → Fin S16x1024x4.rank)
  reducesTo_S16x1024x4_S_d0_1_2 : S16x1024x4.ReducesTo [0, 1, 2] S_
  bcast_S_S16x128x4 : S_.BroadcastsInDim S16x128x4 (![] : Fin 0 → Fin S16x128x4.rank)
  reducesTo_S16x128x4_S_d0_1_2 : S16x128x4.ReducesTo [0, 1, 2] S_
  bcast_S_S16x128 : S_.BroadcastsInDim S16x128 (![] : Fin 0 → Fin S16x128.rank)
  reducesTo_S16x128_S_d0_1 : S16x128.ReducesTo [0, 1] S_

variable [Facts]

def fn_part1 {F : FTy → Type} [FloatOps F] (main_arg2 : IVec S16x128 32) (main_v13 : IVec S_ 1) (main_v15 : IVec S16x128 1) (main_c_5 : IVec S_ 32) : IVec S_ 1 :=
  let main_v16 : IVec S16x128 32 := broadcastInDim S16x128 ![] bcast_S_S16x128 main_c_5
  let main_v17 : IVec S16x128 1 := cmpi .slt main_arg2 main_v16
  let main_v18 : IVec S16x128 1 := andi main_v15 main_v17
  let main_c_6 : IVec S_ 1 := constantI S_ 1 1#1
  let main_v19 : IVec S_ 1 := (fun x v => Host.reduce IntOp.andi x v reducesTo_S16x128_S_d0_1 h_S_) main_v18 main_c_6
  let main_v20 : IVec S_ 1 := andi main_v13 main_v19
  main_v20

def fn {F : FTy → Type} [FloatOps F] (main_arg0 : FVec F S16x1024x91 .f32) (main_arg1 : FVec F S16x1024x4 .f32) (main_arg2 : IVec S16x128 32) (main_arg3 : FVec F S16x128x4 .f32) : IVec S_ 1 :=
  let main_v0 : FVec F S16x1024x91 .f32 := Host.absf main_arg0
  let main_cst : FVec F S_ .f32 := constant S_ .f32 0x7F800000#32
  let main_v1 : FVec F S16x1024x91 .f32 := broadcastInDim S16x1024x91 ![] bcast_S_S16x1024x91 main_cst
  let main_v2 : IVec S16x1024x91 1 := cmpf .olt main_v0 main_v1
  let main_c : IVec S_ 1 := constantI S_ 1 1#1
  let main_v3 : IVec S_ 1 := (fun x v => Host.reduce IntOp.andi x v reducesTo_S16x1024x91_S_d0_1_2 h_S_) main_v2 main_c
  let main_v4 : FVec F S16x1024x4 .f32 := Host.absf main_arg1
  let main_cst_0 : FVec F S_ .f32 := constant S_ .f32 0x7F800000#32
  let main_v5 : FVec F S16x1024x4 .f32 := broadcastInDim S16x1024x4 ![] bcast_S_S16x1024x4 main_cst_0
  let main_v6 : IVec S16x1024x4 1 := cmpf .olt main_v4 main_v5
  let main_c_1 : IVec S_ 1 := constantI S_ 1 1#1
  let main_v7 : IVec S_ 1 := (fun x v => Host.reduce IntOp.andi x v reducesTo_S16x1024x4_S_d0_1_2 h_S_) main_v6 main_c_1
  let main_v8 : IVec S_ 1 := andi main_v3 main_v7
  let main_v9 : FVec F S16x128x4 .f32 := Host.absf main_arg3
  let main_cst_2 : FVec F S_ .f32 := constant S_ .f32 0x7F800000#32
  let main_v10 : FVec F S16x128x4 .f32 := broadcastInDim S16x128x4 ![] bcast_S_S16x128x4 main_cst_2
  let main_v11 : IVec S16x128x4 1 := cmpf .olt main_v9 main_v10
  let main_c_3 : IVec S_ 1 := constantI S_ 1 1#1
  let main_v12 : IVec S_ 1 := (fun x v => Host.reduce IntOp.andi x v reducesTo_S16x128x4_S_d0_1_2 h_S_) main_v11 main_c_3
  let main_v13 : IVec S_ 1 := andi main_v8 main_v12
  let main_c_4 : IVec S_ 32 := constantI S_ 32 0#32
  let main_v14 : IVec S16x128 32 := broadcastInDim S16x128 ![] bcast_S_S16x128 main_c_4
  let main_v15 : IVec S16x128 1 := cmpi .sge main_arg2 main_v14
  let main_c_5 : IVec S_ 32 := constantI S_ 32 91#32
  fn_part1 (F := F) main_arg2 main_v13 main_v15 main_c_5
-- ==== Kernel.lean ====
abbrev S16x1024x91 : Shape := ⟨3, ![16, 1024, 91]⟩
abbrev S16x1024x4 : Shape := ⟨3, ![16, 1024, 4]⟩
abbrev S16x128 : Shape := ⟨2, ![16, 128]⟩
abbrev S16x128x4 : Shape := ⟨3, ![16, 128, 4]⟩
abbrev S16x1x128 : Shape := ⟨3, ![16, 1, 128]⟩
abbrev S16x4x1024 : Shape := ⟨3, ![16, 4, 1024]⟩
abbrev S16x4x128 : Shape := ⟨3, ![16, 4, 128]⟩
abbrev S16x1024x128 : Shape := ⟨3, ![16, 1024, 128]⟩
abbrev S4x1024x91 : Shape := ⟨3, ![4, 1024, 91]⟩
abbrev S4x4x1024 : Shape := ⟨3, ![4, 4, 1024]⟩
abbrev S4x1x128 : Shape := ⟨3, ![4, 1, 128]⟩
abbrev S4x4x128 : Shape := ⟨3, ![4, 4, 128]⟩
abbrev S4x1024x128 : Shape := ⟨3, ![4, 1024, 128]⟩
abbrev S4x1024 : Shape := ⟨2, ![4, 1024]⟩
abbrev S4x1024x1 : Shape := ⟨3, ![4, 1024, 1]⟩
abbrev S4x91x128 : Shape := ⟨3, ![4, 91, 128]⟩
abbrev S4x1024x4 : Shape := ⟨3, ![4, 1024, 4]⟩

abbrev nBuf : Space → Nat
  | .hbm => 8
  | .vmem => 10
  | .smem => 0
  | _ => 0

abbrev bufTy : (tb : Table) → Fin (tcTables nBuf tb) → BufTy
  | .hbm, ⟨0, _⟩ => ⟨S16x1024x91, .f32⟩
  | .hbm, ⟨1, _⟩ => ⟨S16x1024x4, .f32⟩
  | .hbm, ⟨2, _⟩ => ⟨S16x128, .i32⟩
  | .hbm, ⟨3, _⟩ => ⟨S16x128x4, .f32⟩
  | .hbm, ⟨4, _⟩ => ⟨S16x1x128, .i32⟩
  | .hbm, ⟨5, _⟩ => ⟨S16x4x1024, .f32⟩
  | .hbm, ⟨6, _⟩ => ⟨S16x4x128, .f32⟩
  | .hbm, ⟨7, _⟩ => ⟨S16x1024x128, .f32⟩
  | .local _ .vmem, ⟨0, _⟩ => ⟨S4x1024x91, .f32⟩
  | .local _ .vmem, ⟨1, _⟩ => ⟨S4x1024x91, .f32⟩
  | .local _ .vmem, ⟨2, _⟩ => ⟨S4x4x1024, .f32⟩
  | .local _ .vmem, ⟨3, _⟩ => ⟨S4x4x1024, .f32⟩
  | .local _ .vmem, ⟨4, _⟩ => ⟨S4x1x128, .i32⟩
  | .local _ .vmem, ⟨5, _⟩ => ⟨S4x1x128, .i32⟩
  | .local _ .vmem, ⟨6, _⟩ => ⟨S4x4x128, .f32⟩
  | .local _ .vmem, ⟨7, _⟩ => ⟨S4x4x128, .f32⟩
  | .local _ .vmem, ⟨8, _⟩ => ⟨S4x1024x128, .f32⟩
  | .local _ .vmem, ⟨9, _⟩ => ⟨S4x1024x128, .f32⟩
  | _, _ => ⟨S16x1024x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x128_S16x1x128 : S16x128.ShapeCasts S16x1x128
  transposes_S16x1024x4_S16x4x1024_0_2_1 : S16x1024x4.Transposes [0, 2, 1] S16x4x1024
  transposes_S16x128x4_S16x4x128_0_2_1 : S16x128x4.Transposes [0, 2, 1] S16x4x128
  inb_S4x1024x91_S4x1024x91_0_0_0 : ∀ a, (![0, 0, 0] : Fin 3 → Nat) a + S4x1024x91.size a ≤ S4x1024x91.size a
  h_S4x1024x91 : 0 < S4x1024x91.numel
  reduces_S4x1024x91_S4x1024 : S4x1024x91.Reduces [2] S4x1024
  shapeCasts_S4x1024_S4x1024x1 : S4x1024.ShapeCasts S4x1024x1
  broadcasts_S4x1024x1_S4x1024x91 : S4x1024x1.Broadcasts S4x1024x91
  bitsLt_bf16_f32 : FTy.bits .bf16 < FTy.bits .f32
  inb_S4x1x128_S4x1x128_0_0_0 : ∀ a, (![0, 0, 0] : Fin 3 → Nat) a + S4x1x128.size a ≤ S4x1x128.size a
  h_S4x1x128 : 0 < S4x1x128.numel
  shapeCasts_S4x1x128_S4x1x128 : S4x1x128.ShapeCasts S4x1x128
  iota_S4x91x128_d1_w32 : S4x91x128.Iotas .tc 32 [1]
  broadcasts_S4x1x128_S4x91x128 : S4x1x128.Broadcasts S4x91x128
  natLt_1_32 : 1 < 32
  inb_S4x4x1024_S4x4x1024_0_0_0 : ∀ a, (![0, 0, 0] : Fin 3 → Nat) a + S4x4x1024.size a ≤ S4x4x1024.size a
  h_S4x4x1024 : 0 < S4x4x1024.numel
  shapeCasts_S4x4x1024_S4x4x1024 : S4x4x1024.ShapeCasts S4x4x1024
  transposes_S4x4x1024_p0_2_1_S4x1024x4 : S4x4x1024.Transposes [0, 2, 1] S4x1024x4
  inb_S4x4x128_S4x4x128_0_0_0 : ∀ a, (![0, 0, 0] : Fin 3 → Nat) a + S4x4x128.size a ≤ S4x4x128.size a
  h_S4x4x128 : 0 < S4x4x128.numel
  shapeCasts_S4x4x128_S4x4x128 : S4x4x128.ShapeCasts S4x4x128
  slices_S4x1024x4_o0_0_0_S4x1024x1 : S4x1024x4.Slices ![0, 0, 0] S4x1024x1
  slices_S4x4x128_o0_0_0_S4x1x128 : S4x4x128.Slices ![0, 0, 0] S4x1x128
  broadcasts_S4x1024x1_S4x1024x128 : S4x1024x1.Broadcasts S4x1024x128
  broadcasts_S4x1x128_S4x1024x128 : S4x1x128.Broadcasts S4x1024x128
  slices_S4x1024x4_o0_0_1_S4x1024x1 : S4x1024x4.Slices ![0, 0, 1] S4x1024x1
  slices_S4x4x128_o0_1_0_S4x1x128 : S4x4x128.Slices ![0, 1, 0] S4x1x128
  slices_S4x1024x4_o0_0_2_S4x1024x1 : S4x1024x4.Slices ![0, 0, 2] S4x1024x1
  slices_S4x4x128_o0_2_0_S4x1x128 : S4x4x128.Slices ![0, 2, 0] S4x1x128
  slices_S4x1024x4_o0_0_3_S4x1024x1 : S4x1024x4.Slices ![0, 0, 3] S4x1024x1
  slices_S4x4x128_o0_3_0_S4x1x128 : S4x4x128.Slices ![0, 3, 0] S4x1x128
  inb_S4x1024x128_S4x1024x128_0_0_0 : ∀ a, (![0, 0, 0] : Fin 3 → Nat) a + S4x1024x128.size a ≤ S4x1024x128.size a
  h_S4x1024x128 : 0 < S4x1024x128.numel
  dot_S4x1024x91_S4x91x128_S4x1024x128_2_1_1_2_0_0_wf : DotDims.WF S4x1024x91 S4x91x128 S4x1024x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x91.size a ≤ S16x1024x91.size a
  hwx0_0 : ∀ i : grid0.Coords, EltTy.bits .f32 = 32 ∨ (Rect.block (s := S16x1024x91) S4x1024x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x4x1024.size a ≤ S16x4x1024.size a
  hwx0_1 : ∀ i : grid0.Coords, EltTy.bits .f32 = 32 ∨ (Rect.block (s := S16x4x1024) S4x4x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x128.size a ≤ S16x1x128.size a
  hwx0_2 : ∀ i : grid0.Coords, EltTy.bits .i32 = 32 ∨ (Rect.block (s := S16x1x128) S4x1x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x4x128.size a ≤ S16x4x128.size a
  hwx0_3 : ∀ i : grid0.Coords, EltTy.bits .f32 = 32 ∨ (Rect.block (s := S16x4x128) S4x4x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1024x128.size a ≤ S16x1024x128.size a
  hwx0_4 : ∀ i : grid0.Coords, EltTy.bits .f32 = 32 ∨ (Rect.block (s := S16x1024x128) S4x1024x128.size (cc0_transform_4 i) (hinb0_4 i)).WholeWords (EltTy.packing .f32)

variable [Facts₀]

def dot_S4x1024x91_S4x91x128_S4x1024x128_2_1_1_2_0_0 : DotDims S4x1024x91 S4x91x128 S4x1024x128 where
  lhsContracting := [2]
  rhsContracting := [1]
  lhsNonContracting := [1]
  rhsNonContracting := [2]
  lhsBatch := [0]
  rhsBatch := [0]
  wf := dot_S4x1024x91_S4x91x128_S4x1024x128_2_1_1_2_0_0_wf

abbrev win0_0 : Pipeline.Window sig grid0 :=
  Pipeline.Window.ofSpec (Memref.whole main_arg0) S4x1024x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x4x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x4x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x91 : Shape := ⟨3, ![16, 1024, 91]⟩
abbrev S16x1024x4 : Shape := ⟨3, ![16, 1024, 4]⟩
abbrev S16x128 : Shape := ⟨2, ![16, 128]⟩
abbrev S16x128x4 : Shape := ⟨3, ![16, 128, 4]⟩
abbrev S_ : Shape := ⟨0, ![]⟩
abbrev S16x1024 : Shape := ⟨2, ![16, 1024]⟩
abbrev S16x1024x1 : Shape := ⟨3, ![16, 1024, 1]⟩
abbrev S16384x91 : Shape := ⟨2, ![16384, 91]⟩
abbrev S16384x4 : Shape := ⟨2, ![16384, 4]⟩
abbrev S2048 : Shape := ⟨1, ![2048]⟩
abbrev S2048x4 : Shape := ⟨2, ![2048, 4]⟩
abbrev S2048x1 : Shape := ⟨2, ![2048, 1]⟩
abbrev S16384x2048 : Shape := ⟨2, ![16384, 2048]⟩
abbrev S16384x1x4 : Shape := ⟨3, ![16384, 1, 4]⟩
abbrev S1x2048x4 : Shape := ⟨3, ![1, 2048, 4]⟩
abbrev S16384x2048x4 : Shape := ⟨3, ![16384, 2048, 4]⟩
abbrev S16x1024x16x128 : Shape := ⟨4, ![16, 1024, 16, 128]⟩
abbrev S16 : Shape := ⟨1, ![16]⟩
abbrev S16x1 : Shape := ⟨2, ![16, 1]⟩
abbrev S16x2 : Shape := ⟨2, ![16, 2]⟩
abbrev S16x1024x128 : Shape := ⟨3, ![16, 1024, 128]⟩

abbrev nBuf : Space → Nat
  | .hbm => 68
  | .vmem => 0
  | .smem => 0
  | _ => 0

abbrev bufTy : (tb : Table) → Fin (tcTables nBuf tb) → BufTy
  | .hbm, ⟨0, _⟩ => ⟨S16x1024x91, .f32⟩
  | .hbm, ⟨1, _⟩ => ⟨S16x1024x4, .f32⟩
  | .hbm, ⟨2, _⟩ => ⟨S16x128, .i32⟩
  | .hbm, ⟨3, _⟩ => ⟨S16x128x4, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S16x1024x1, .f32⟩
  | .hbm, ⟨10, _⟩ => ⟨S16x1024x91, .f32⟩
  | .hbm, ⟨11, _⟩ => ⟨S16x1024x91, .f32⟩
  | .hbm, ⟨12, _⟩ => ⟨S16x1024x91, .f32⟩
  | .hbm, ⟨13, _⟩ => ⟨S_, .f32⟩
  | .hbm, ⟨14, _⟩ => ⟨S16x1024, .f32⟩
  | .hbm, ⟨15, _⟩ => ⟨S16x1024x1, .f32⟩
  | .hbm, ⟨16, _⟩ => ⟨S16x1024x91, .f32⟩
  | .hbm, ⟨17, _⟩ => ⟨S16x1024x91, .f32⟩
  | .hbm, ⟨18, _⟩ => ⟨S16384x91, .f32⟩
  | .hbm, ⟨19, _⟩ => ⟨S16384x4, .f32⟩
  | .hbm, ⟨20, _⟩ => ⟨S2048, .i32⟩
  | .hbm, ⟨21, _⟩ => ⟨S2048x4, .f32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S2048x1, .i32⟩
  | .hbm, ⟨30, _⟩ => ⟨S16384x2048, .f32⟩
  | .hbm, ⟨31, _⟩ => ⟨S16384x2048, .f32⟩
  | .hbm, ⟨32, _⟩ => ⟨S16384x1x4, .f32⟩
  | .hbm, ⟨33, _⟩ => ⟨S1x2048x4, .f32⟩
  | .hbm, ⟨34, _⟩ => ⟨S16384x2048x4, .f32⟩
  | .hbm, ⟨35, _⟩ => ⟨S16384x2048x4, .f32⟩
  | .hbm, ⟨36, _⟩ => ⟨S16384x2048x4, .f32⟩
  | .hbm, ⟨37, _⟩ => ⟨S16384x2048x4, .f32⟩
  | .hbm, ⟨38, _⟩ => ⟨S_, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16x1024x16x128, .f32⟩
  | .hbm, ⟨48, _⟩ => ⟨S16, .i32⟩
  | .hbm, ⟨49, _⟩ => ⟨S16, .i32⟩
  | .hbm, ⟨50, _⟩ => ⟨S_, .i32⟩
  | .hbm, ⟨51, _⟩ => ⟨S16, .i32⟩
  | .hbm, ⟨52, _⟩ => ⟨S16, .i1⟩
  | .hbm, ⟨53, _⟩ => ⟨S_, .i32⟩
  | .hbm, ⟨54, _⟩ => ⟨S16, .i32⟩
  | .hbm, ⟨55, _⟩ => ⟨S16, .i32⟩
  | .hbm, ⟨56, _⟩ => ⟨S16, .i32⟩
  | .hbm, ⟨57, _⟩ => ⟨S_, .i32⟩
  | .hbm, ⟨58, _⟩ => ⟨S16, .i32⟩
  | .hbm, ⟨59, _⟩ => ⟨S16, .i1⟩
  | .hbm, ⟨60, _⟩ => ⟨S_, .i32⟩
  | .hbm, ⟨61, _⟩ => ⟨S16, .i32⟩
  | .hbm, ⟨62, _⟩ => ⟨S16, .i32⟩
  | .hbm, ⟨63, _⟩ => ⟨S16, .i32⟩
  | .hbm, ⟨64, _⟩ => ⟨S16x1, .i32⟩
  | .hbm, ⟨65, _⟩ => ⟨S16x1, .i32⟩
  | .hbm, ⟨66, _⟩ => ⟨S16x2, .i32⟩
  | .hbm, ⟨67, _⟩ => ⟨S16x1024x128, .f32⟩
  | _, _ => ⟨S16x1024x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_c_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_8 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]

class Facts₀ : Prop where
  reducesTo_S16x1024x91_S16x1024_d2 : S16x1024x91.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x91_0_1_2 : S16x1024x1.BroadcastsInDim S16x1024x91 (![0, 1, 2] : Fin 3 → Fin S16x1024x91.rank)
  shapeCasts_S16x1024x91_S16384x91 : S16x1024x91.ShapeCasts S16384x91
  shapeCasts_S16x1024x4_S16384x4 : S16x1024x4.ShapeCasts S16384x4
  shapeCasts_S16x128_S2048 : S16x128.ShapeCasts S2048
  shapeCasts_S16x128x4_S2048x4 : S16x128x4.ShapeCasts S2048x4
  bcast_S_S2048 : S_.BroadcastsInDim S2048 (![] : Fin 0 → Fin S2048.rank)
  bcast_S2048_S2048x1_0 : S2048.BroadcastsInDim S2048x1 (![0] : Fin 1 → Fin S2048x1.rank)
  bcast_S16384x4_S16384x1x4_0_2 : S16384x4.BroadcastsInDim S16384x1x4 (![0, 2] : Fin 2 → Fin S16384x1x4.rank)
  bcast_S2048x4_S1x2048x4_1_2 : S2048x4.BroadcastsInDim S1x2048x4 (![1, 2] : Fin 2 → Fin S1x2048x4.rank)
  bcast_S16384x1x4_S16384x2048x4_0_1_2 : S16384x1x4.BroadcastsInDim S16384x2048x4 (![0, 1, 2] : Fin 3 → Fin S16384x2048x4.rank)
  bcast_S1x2048x4_S16384x2048x4_0_1_2 : S1x2048x4.BroadcastsInDim S16384x2048x4 (![0, 1, 2] : Fin 3 → Fin S16384x2048x4.rank)
  reducesTo_S16384x2048x4_S16384x2048_d2 : S16384x2048x4.ReducesTo [2] S16384x2048
  bcast_S_S16384x2048 : S_.BroadcastsInDim S16384x2048 (![] : Fin 0 → Fin S16384x2048.rank)
  shapeCasts_S16384x2048_S16x1024x16x128 : S16384x2048.ShapeCasts S16x1024x16x128
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  gather_S16384x91_S2048x1_S16384x2048_0_1_n_n_1_1_163841_wf : GatherDims.WF S16384x91 S2048x1 S16384x2048 [0] [1] [] [1] [] 1 ![16384, 1]
  gather_S16x1024x16x128_S16x2_S16x1024x128_12_02_n_n_02_1_110241128_wf : GatherDims.WF S16x1024x16x128 S16x2 S16x1024x128 [1, 2] [0, 2] [] [0, 2] [] 1 ![1, 1024, 1, 128]

variable [Facts₀]

def gather_S16384x91_S2048x1_S16384x2048_0_1_n_n_1_1_163841 : GatherDims S16384x91 S2048x1 S16384x2048 where
  offsetDims := [0]
  collapsedSliceDims := [1]
  operandBatchingDims := []
  startIndicesBatchingDims := []
  startIndexMap := [1]
  indexVectorDim := 1
  sliceSizes := ![16384, 1]
  wf := gather_S16384x91_S2048x1_S16384x2048_0_1_n_n_1_1_163841_wf
def gather_S16x1024x16x128_S16x2_S16x1024x128_12_02_n_n_02_1_110241128 : GatherDims S16x1024x16x128 S16x2 S16x1024x128 where
  offsetDims := [1, 2]
  collapsedSliceDims := [0, 2]
  operandBatchingDims := []
  startIndicesBatchingDims := []
  startIndexMap := [0, 2]
  indexVectorDim := 1
  sliceSizes := ![1, 1024, 1, 128]
  wf := gather_S16x1024x16x128_S16x2_S16x1024x128_12_02_n_n_02_1_110241128_wf

class Facts : Prop extends Facts₀ where

variable [Facts]
-- ==== Proof.CostSpec.lean ====
/-
  The matching cost, one entry at a time.

  For image `b`, query `q` and target `t` the entry is
      5 · ‖box(b,q) − tbox(b,t)‖₁  −  softmax(logits(b,q,·))[label(b,t)],
  the weighted L1 distance between a predicted box and a target box minus the probability the
  query gives the target's class. Everything about one entry depends on four small things only: a
  row of 91 class scores, two boxes of 4 coordinates, and one label word. `costAt` is that scalar
  function on the extended reals; `cost` reads the four things off the argument arrays.

  The softmax is the shifted one: the row's maximum is subtracted before the exponential, and the
  maximum is the fold of `max` from the value of the minus-infinity pattern. The class probability
  of a label word outside `[0, 91)` is `0`: no class equals such a word.

  Three laws are proved here, free of any program:
  * `max_rowMax`: taking the maximum with the fold's own starting value once more changes nothing;
  * `onehot_sum`: a sum over the 91 classes of `f c` times the indicator "the word is class c" is
    `f` at the word's class when the word is below 91, and `0` otherwise;
  * `sum_form`: the same entry written with the distance as a sum from zero over the four
    coordinates and the probability entering as `1 · (−p)` added, for a word that is class `k`.
-/
import Idealize.ShloMosaic.PureOps.Ideal
import Idealize.ShloMosaic.PureOps.Ideal.Laws
import Idealize.ShloMosaic.Lib.ValueIdx
import Idealize.ShloMosaic.Lib.IdealHost
import Mathlib.Data.Finset.Fold

noncomputable section

open scoped BigOperators

namespace Cert.MatchCost

open Idealize.ShloMosaic Idealize.ShloMosaic.ValueIdx

/-- The largest of a row of 91 class scores: the fold of `max` from what the pattern of minus infinity denotes. -/
def rowMax (x : Fin 91 → EReal) : EReal :=
  (Finset.univ : Finset (Fin 91)).fold max (Ideal.ofBits .f32 0xFF800000#32) x

/-- A score's exponential after the row's maximum is subtracted. -/
def expShift (x : Fin 91 → EReal) (k : Fin 91) : EReal := Ideal.exp (x k - rowMax x)

/-- The softmax of the row at class `k`: the shifted exponential over the sum of the row's. -/
def softmaxAt (x : Fin 91 → EReal) (k : Fin 91) : EReal :=
  Ideal.div (expShift x k) (∑ j : Fin 91, expShift x j)

/-- The probability of the class a label word names; a word that names no class gets `0`. -/
def classProb (x : Fin 91 → EReal) (w : BitVec 32) : EReal :=
  if h : w.toNat < 91 then softmaxAt x ⟨w.toNat, h⟩ else 0

/-- The absolute value on the extended reals, as the larger of a number and its negative. -/
def absE (a : EReal) : EReal := max a (-a)

/-- The L1 distance of two boxes, the four coordinates added from the left. -/
def l1 (p t : Fin 4 → EReal) : EReal :=
  ((absE (p 0 - t 0) + absE (p 1 - t 1)) + absE (p 2 - t 2)) + absE (p 3 - t 3)

/-- One entry of the cost: five times the box distance minus the class probability. -/
def costAt (x : Fin 91 → EReal) (p t : Fin 4 → EReal) (w : BitVec 32) : EReal :=
  Ideal.ofBits .f32 0x40A00000#32 * l1 p t - classProb x w

/-- The cost array [16, 1024, 128] of the four argument arrays: entry (b, q, t) is `costAt` of image `b`'s score
    row at query `q`, its predicted box there, its target box `t` and its label `t`. -/
def cost (L : FVec Ideal ⟨3, ![16, 1024, 91]⟩ .f32) (B : FVec Ideal ⟨3, ![16, 1024, 4]⟩ .f32)
    (lab : IVec ⟨2, ![16, 128]⟩ 32) (T : FVec Ideal ⟨3, ![16, 128, 4]⟩ .f32) :
    FVec Ideal ⟨3, ![16, 1024, 128]⟩ .f32 :=
  fun i => costAt (fun k : Fin 91 => L (ix3 (n0 := 16) (n1 := 1024) (n2 := 91) (i 0) (i 1) k))
    (fun c : Fin 4 => B (ix3 (n0 := 16) (n1 := 1024) (n2 := 4) (i 0) (i 1) c))
    (fun c : Fin 4 => T (ix3 (n0 := 16) (n1 := 128) (n2 := 4) (i 0) (i 2) c))
    (lab (ix2 (n0 := 16) (n1 := 128) (i 0) (i 2)))

/-- The fold starts from the value it is compared with, so that value is below the fold. -/
theorem max_rowMax (x : Fin 91 → EReal) : max (Ideal.ofBits .f32 0xFF800000#32) (rowMax x) = rowMax x :=
  max_eq_right ((Finset.le_fold_max _).mpr (Or.inl le_rfl))

/-- A word equals the word of a class number below 91 exactly when its value is that number. -/
theorem word_eq_class_iff (w : BitVec 32) (c : Fin 91) : w = BitVec.ofNat 32 c.val ↔ w.toNat = c.val := by
  have hc : c.val < 91 := c.isLt
  constructor
  · intro h; rw [h, BitVec.toNat_ofNat]; omega
  · intro h; rw [← h, BitVec.ofNat_toNat, BitVec.setWidth_eq]

/-- Summing `f c` times the indicator of "the word is class `c`" over the classes picks `f` at the word's
    class, or nothing when the word names no class. -/
theorem onehot_sum (f ind : Fin 91 → EReal) (w : BitVec 32)
    (hind : ∀ c : Fin 91, ind c = if w = BitVec.ofNat 32 c.val then 1 else 0) :
    ∑ c : Fin 91, f c * ind c = if h : w.toNat < 91 then f ⟨w.toNat, h⟩ else 0 := by
  by_cases h : w.toNat < 91
  · rw [dif_pos h, Finset.sum_eq_single (⟨w.toNat, h⟩ : Fin 91)]
    · rw [hind, if_pos ((word_eq_class_iff w _).mpr rfl), mul_one]
    · intro c _ hc
      rw [hind, if_neg (fun e => hc (Fin.ext ((word_eq_class_iff w c).mp e).symm)), mul_zero]
    · intro hn; exact absurd (Finset.mem_univ _) hn
  · rw [dif_neg h]
    refine Finset.sum_eq_zero fun c _ => ?_
    rw [hind, if_neg (fun e => h (by rw [(word_eq_class_iff w c).mp e]; exact c.isLt)), mul_zero]

/-- The entry with the distance summed from zero over the four coordinates and the probability added as
    `1 · (−p)`, for a word whose value is the class `k`. -/
theorem sum_form (x : Fin 91 → EReal) (p t : Fin 4 → EReal) (w : BitVec 32) (k : Fin 91) (hk : w.toNat = k.val) :
    Ideal.ofBits .f32 0x40A00000#32 * (Ideal.ofBits .f32 0x00000000#32 + ∑ c : Fin 4, absE (p c - t c))
        + Ideal.ofBits .f32 0x3F800000#32 * (-(softmaxAt x k))
      = costAt x p t w := by
  have hw : w.toNat < 91 := by rw [hk]; exact k.isLt
  have hkk : (⟨w.toNat, hw⟩ : Fin 91) = k := Fin.ext hk
  unfold costAt classProb l1
  rw [dif_pos hw, hkk, Ideal.ofBits_zero_f32, Ideal.ofBits_one_f32, zero_add, one_mul, Fin.sum_univ_four]
  exact (sub_eq_add_neg _ _).symm

end Cert.MatchCost

end
-- ==== Proof.LabelRange.lean ====
/-
  What the precondition says of the labels: every entry of the label array, read as an unsigned word, is below 91
  (the precondition's last conjunct is "0 ≤ label < 91" at every entry, compared as signed words).
-/
import proofs.«418324_j84490596647596_3_alg».proof.Pre_finite_inputs
import proofs.«418324_j84490596647596_3_alg».proof.Proof.Gen.Pre_finite_inputs
import Idealize.ShloMosaic.Lib.ReduceAll
import Idealize.ShloMosaic.Lib.StableHlo.Predicate

noncomputable section

namespace Cert.LabelRange

open Idealize.ShloMosaic Cert.Pre_finite_inputs

variable {F : FTy → Type} [FloatOps F]

/-- A 32-bit word that, compared as a signed number, is at least 0 and below 91 has its top bit clear, so its
    unsigned reading is its signed reading, and that is below 91. -/
theorem toNat_lt_of_signed_range (w : BitVec 32) (h0 : IntOp.cmpi .sge w 0#32 = 1#1)
    (h1 : IntOp.cmpi .slt w 91#32 = 1#1) : w.toNat < 91 := by
  rw [IntOp.cmpi_sge] at h0
  rw [IntOp.cmpi_slt] at h1
  have e0 : (0#32 : BitVec 32).toInt = 0 := by decide
  have e91 : (91#32 : BitVec 32).toInt = 91 := by decide
  rw [e0] at h0
  rw [e91] at h1
  -- the signed reading is the unsigned one, less 2^32 when the top bit is set; a set top bit would make it negative
  rw [BitVec.toInt_eq_toNat_cond] at h0 h1
  have hw := w.isLt
  split at h0 <;> omega

/-- Under the precondition every label word is below 91. -/
theorem labels_in_range [Cert.Pre_finite_inputs.Facts] (a0 : FVec F S16x1024x91 .f32) (a1 : FVec F S16x1024x4 .f32) (a2 : IVec S16x128 32)
    (a3 : FVec F S16x128x4 .f32) (h : Cert.Pre_finite_inputs.fn (F := F) a0 a1 a2 a3 = fun _ => 1#1) :
    ∀ i : S16x128.Idx, (a2 i).toNat < 91 := by
  intro i
  -- the predicate's one result word, written out as its chain of operations
  have h0 := congrFun h (fun a => a.elim0)
  dsimp only [Cert.Pre_finite_inputs.fn, Cert.Pre_finite_inputs.fn_part1] at h0
  -- the result is a conjunction of four words; its last one is "every label lies in [0, 91)"
  have hlast : Host.reduce IntOp.andi
        (andi (cmpi CmpIPredicate.sge a2 (broadcastInDim S16x128 ![] Facts.bcast_S_S16x128 (constantI S_ 32 0#32)))
          (cmpi CmpIPredicate.slt a2 (broadcastInDim S16x128 ![] Facts.bcast_S_S16x128 (constantI S_ 32 91#32))))
        (constantI S_ 1 1#1) Facts.reducesTo_S16x128_S_d0_1 Facts.h_S_ (fun a => a.elim0) = 1#1 :=
    (IntOp.andi_eq_one.1 h0).2
  -- a conjunction over all entries that holds, holds at the entry `i`
  haveI : Subsingleton S_.Idx := ⟨fun a b => funext fun d => d.elim0⟩
  have hel := Host.reduce_andi_all _ _ _ _ _ hlast i
  -- at `i` it is the pair of comparisons of the label with the constants 0 and 91, each broadcast from a scalar
  obtain ⟨hge, hlt⟩ := IntOp.andi_eq_one.1 hel
  exact toNat_lt_of_signed_range (a2 i) hge hlt

end Cert.LabelRange

end
-- ==== Proof.RefGather.lean ====
/-
  The reference's two gathers, read at an index, for ANY operand and start-index arrays.

  * The class gather takes column `idx[n]` of a [16384, 91] table for each of 2048 start indices: result entry (r, n)
    is the table at (r, k) when the start index at n, read as a signed word, is the class number k < 91 (no clamping
    happens for such an index).
  * The diagonal gather reads a [16, 1024, 16, 128] array at (idx[b,0], ·, idx[b,1], ·): result entry (b, q, t) is the
    array at (b, q, b, t) when both start indices at b, read as signed words, are b itself.
-/
import proofs.«418324_j84490596647596_3_alg».proof.ReferenceIdeal
import proofs.«418324_j84490596647596_3_alg».proof.Proof.Gen.ReferenceIdeal
import Idealize.ShloMosaic.Lib.ValueIdx

noncomputable section

namespace Cert.ReferenceIdeal.RefGather

open Idealize.ShloMosaic Idealize.ShloMosaic.ValueIdx Cert.ReferenceIdeal Cert.ReferenceIdeal.Gen

/-- The class gather at (r, n) reads column `k` of row `r`, for a start index at `n` whose signed value is `k`. -/
theorem gather_class {α : Type} (y : S16384x91.Idx → α) (idx : IVec S2048x1 32) (r : Fin 16384) (n : Fin 2048) (k : Fin 91)
    (hk : (idx (ix2 (n0 := 2048) (n1 := 1) n (0 : Fin 1))).toInt = (k.val : Int)) :
    Host.gather gather_S16384x91_S2048x1_S16384x2048_0_1_n_n_1_1_163841 y idx (ix2 (n0 := 16384) (n1 := 2048) r n)
      = y (ix2 (n0 := 16384) (n1 := 91) r k) := by
  unfold Host.gather
  congr 1
  funext a
  apply Fin.ext
  match a with
  | ⟨0, _⟩ =>
    -- the row axis: no start index names it and it is the one offset axis, so the coordinate is the result's row r
    simp only [GatherDims.operandIdx]
    rw [GatherDims.batchCoord_eq_zero _ _ _ List.not_mem_nil]
    have hs : gather_S16384x91_S2048x1_S16384x2048_0_1_n_n_1_1_163841.start (ix2 (n0 := 16384) (n1 := 2048) r n) idx (0 : Fin 2) = 0 := by
      unfold GatherDims.start
      exact dif_neg (by decide)
    have ho : gather_S16384x91_S2048x1_S16384x2048_0_1_n_n_1_1_163841.offCoord (ix2 (n0 := 16384) (n1 := 2048) r n) (0 : Fin 2) = r.val := by
      unfold GatherDims.offCoord
      rw [dif_pos (by decide)]
      rfl
    show gather_S16384x91_S2048x1_S16384x2048_0_1_n_n_1_1_163841.start (ix2 (n0 := 16384) (n1 := 2048) r n) idx (0 : Fin 2) + 0
      + gather_S16384x91_S2048x1_S16384x2048_0_1_n_n_1_1_163841.offCoord (ix2 (n0 := 16384) (n1 := 2048) r n) (0 : Fin 2) = r.val
    rw [hs, ho]; omega
  | ⟨1, _⟩ =>
    -- the column axis: collapsed, so no offset; its start is the index at (n, 0) clamped to [0, 90], which is k itself
    simp only [GatherDims.operandIdx]
    rw [GatherDims.batchCoord_eq_zero _ _ _ List.not_mem_nil]
    have ho : gather_S16384x91_S2048x1_S16384x2048_0_1_n_n_1_1_163841.offCoord (ix2 (n0 := 16384) (n1 := 2048) r n) (1 : Fin 2) = 0 :=
      GatherDims.offCoord_eq_zero _ _ _ (by decide)
    have hs : gather_S16384x91_S2048x1_S16384x2048_0_1_n_n_1_1_163841.start (ix2 (n0 := 16384) (n1 := 2048) r n) idx (1 : Fin 2) = k.val := by
      unfold GatherDims.start
      rw [dif_pos (by decide)]
      have hsi : gather_S16384x91_S2048x1_S16384x2048_0_1_n_n_1_1_163841.siIdx (ix2 (n0 := 16384) (n1 := 2048) r n)
          ⟨List.idxOf (1 : Fin 2) gather_S16384x91_S2048x1_S16384x2048_0_1_n_n_1_1_163841.startIndexMap,
            List.idxOf_lt_length_iff.2 (by decide)⟩ = ix2 (n0 := 2048) (n1 := 1) n (0 : Fin 1) := by
        funext b
        apply Fin.ext
        match b with
        | ⟨0, _⟩ => rfl
        | ⟨1, _⟩ => rfl
      rw [hsi, hk]
      show min ((k.val : Int)).toNat (91 - 1) = k.val
      rw [Int.toNat_natCast]
      have := k.isLt
      omega
    show gather_S16384x91_S2048x1_S16384x2048_0_1_n_n_1_1_163841.start (ix2 (n0 := 16384) (n1 := 2048) r n) idx (1 : Fin 2) + 0
      + gather_S16384x91_S2048x1_S16384x2048_0_1_n_n_1_1_163841.offCoord (ix2 (n0 := 16384) (n1 := 2048) r n) (1 : Fin 2) = k.val
    rw [hs, ho]; omega

/-- The diagonal gather at (b, q, t) reads (b, q, b, t), for start indices at `b` whose signed values are both `b`. -/
theorem gather_diag {α : Type} (y : S16x1024x16x128.Idx → α) (idx : IVec S16x2 32) (b : Fin 16) (q : Fin 1024) (t : Fin 128)
    (h0 : (idx (ix2 (n0 := 16) (n1 := 2) b (0 : Fin 2))).toInt = (b.val : Int))
    (h1 : (idx (ix2 (n0 := 16) (n1 := 2) b (1 : Fin 2))).toInt = (b.val : Int)) :
    Host.gather gather_S16x1024x16x128_S16x2_S16x1024x128_12_02_n_n_02_1_110241128 y idx
        (ix3 (n0 := 16) (n1 := 1024) (n2 := 128) b q t)
      = y (ix4 (n0 := 16) (n1 := 1024) (n2 := 16) (n3 := 128) b q b t) := by
  unfold Host.gather
  congr 1
  funext a
  apply Fin.ext
  match a with
  | ⟨0, _⟩ =>
    -- axis 0: collapsed; its start is the index at (b, 0) clamped to [0, 15], which is b
    simp only [GatherDims.operandIdx]
    rw [GatherDims.batchCoord_eq_zero _ _ _ List.not_mem_nil]
    have ho : gather_S16x1024x16x128_S16x2_S16x1024x128_12_02_n_n_02_1_110241128.offCoord (ix3 (n0 := 16) (n1 := 1024) (n2 := 128) b q t) (0 : Fin 4) = 0 :=
      GatherDims.offCoord_eq_zero _ _ _ (by decide)
    have hs : gather_S16x1024x16x128_S16x2_S16x1024x128_12_02_n_n_02_1_110241128.start (ix3 (n0 := 16) (n1 := 1024) (n2 := 128) b q t) idx (0 : Fin 4) = b.val := by
      unfold GatherDims.start
      rw [dif_pos (by decide)]
      have hsi : gather_S16x1024x16x128_S16x2_S16x1024x128_12_02_n_n_02_1_110241128.siIdx (ix3 (n0 := 16) (n1 := 1024) (n2 := 128) b q t)
          ⟨List.idxOf (0 : Fin 4) gather_S16x1024x16x128_S16x2_S16x1024x128_12_02_n_n_02_1_110241128.startIndexMap, List.idxOf_lt_length_iff.2 (by decide)⟩
            = ix2 (n0 := 16) (n1 := 2) b (0 : Fin 2) := by
        funext c
        apply Fin.ext
        match c with
        | ⟨0, _⟩ => rfl
        | ⟨1, _⟩ => rfl
      rw [hsi, h0]
      show min ((b.val : Int)).toNat (16 - 1) = b.val
      rw [Int.toNat_natCast]
      have := b.isLt
      omega
    show gather_S16x1024x16x128_S16x2_S16x1024x128_12_02_n_n_02_1_110241128.start (ix3 (n0 := 16) (n1 := 1024) (n2 := 128) b q t) idx (0 : Fin 4) + 0 + gather_S16x1024x16x128_S16x2_S16x1024x128_12_02_n_n_02_1_110241128.offCoord (ix3 (n0 := 16) (n1 := 1024) (n2 := 128) b q t) (0 : Fin 4) = b.val
    rw [hs, ho]; omega
  | ⟨1, _⟩ =>
    -- axis 1: the first offset axis, no start; the coordinate is the result's q
    simp only [GatherDims.operandIdx]
    rw [GatherDims.batchCoord_eq_zero _ _ _ List.not_mem_nil]
    have hs : gather_S16x1024x16x128_S16x2_S16x1024x128_12_02_n_n_02_1_110241128.start (ix3 (n0 := 16) (n1 := 1024) (n2 := 128) b q t) idx (1 : Fin 4) = 0 := by
      unfold GatherDims.start
      exact dif_neg (by decide)
    have ho : gather_S16x1024x16x128_S16x2_S16x1024x128_12_02_n_n_02_1_110241128.offCoord (ix3 (n0 := 16) (n1 := 1024) (n2 := 128) b q t) (1 : Fin 4) = q.val := by
      unfold GatherDims.offCoord
      rw [dif_pos (by decide)]
      rfl
    show gather_S16x1024x16x128_S16x2_S16x1024x128_12_02_n_n_02_1_110241128.start (ix3 (n0 := 16) (n1 := 1024) (n2 := 128) b q t) idx (1 : Fin 4) + 0 + gather_S16x1024x16x128_S16x2_S16x1024x128_12_02_n_n_02_1_110241128.offCoord (ix3 (n0 := 16) (n1 := 1024) (n2 := 128) b q t) (1 : Fin 4) = q.val
    rw [hs, ho]; omega
  | ⟨2, _⟩ =>
    -- axis 2: collapsed; its start is the index at (b, 1) clamped to [0, 15], which is b
    simp only [GatherDims.operandIdx]
    rw [GatherDims.batchCoord_eq_zero _ _ _ List.not_mem_nil]
    have ho : gather_S16x1024x16x128_S16x2_S16x1024x128_12_02_n_n_02_1_110241128.offCoord (ix3 (n0 := 16) (n1 := 1024) (n2 := 128) b q t) (2 : Fin 4) = 0 :=
      GatherDims.offCoord_eq_zero _ _ _ (by decide)
    have hs : gather_S16x1024x16x128_S16x2_S16x1024x128_12_02_n_n_02_1_110241128.start (ix3 (n0 := 16) (n1 := 1024) (n2 := 128) b q t) idx (2 : Fin 4) = b.val := by
      unfold GatherDims.start
      rw [dif_pos (by decide)]
      have hsi : gather_S16x1024x16x128_S16x2_S16x1024x128_12_02_n_n_02_1_110241128.siIdx (ix3 (n0 := 16) (n1 := 1024) (n2 := 128) b q t)
          ⟨List.idxOf (2 : Fin 4) gather_S16x1024x16x128_S16x2_S16x1024x128_12_02_n_n_02_1_110241128.startIndexMap, List.idxOf_lt_length_iff.2 (by decide)⟩
            = ix2 (n0 := 16) (n1 := 2) b (1 : Fin 2) := by
        funext c
        apply Fin.ext
        match c with
        | ⟨0, _⟩ => rfl
        | ⟨1, _⟩ => rfl
      rw [hsi, h1]
      show min ((b.val : Int)).toNat (16 - 1) = b.val
      rw [Int.toNat_natCast]
      have := b.isLt
      omega
    show gather_S16x1024x16x128_S16x2_S16x1024x128_12_02_n_n_02_1_110241128.start (ix3 (n0 := 16) (n1 := 1024) (n2 := 128) b q t) idx (2 : Fin 4) + 0 + gather_S16x1024x16x128_S16x2_S16x1024x128_12_02_n_n_02_1_110241128.offCoord (ix3 (n0 := 16) (n1 := 1024) (n2 := 128) b q t) (2 : Fin 4) = b.val
    rw [hs, ho]; omega
  | ⟨3, _⟩ =>
    -- axis 3: the second offset axis, no start; the coordinate is the result's t
    simp only [GatherDims.operandIdx]
    rw [GatherDims.batchCoord_eq_zero _ _ _ List.not_mem_nil]
    have hs : gather_S16x1024x16x128_S16x2_S16x1024x128_12_02_n_n_02_1_110241128.start (ix3 (n0 := 16) (n1 := 1024) (n2 := 128) b q t) idx (3 : Fin 4) = 0 := by
      unfold GatherDims.start
      exact dif_neg (by decide)
    have ho : gather_S16x1024x16x128_S16x2_S16x1024x128_12_02_n_n_02_1_110241128.offCoord (ix3 (n0 := 16) (n1 := 1024) (n2 := 128) b q t) (3 : Fin 4) = t.val := by
      unfold GatherDims.offCoord
      rw [dif_pos (by decide)]
      rfl
    show gather_S16x1024x16x128_S16x2_S16x1024x128_12_02_n_n_02_1_110241128.start (ix3 (n0 := 16) (n1 := 1024) (n2 := 128) b q t) idx (3 : Fin 4) + 0 + gather_S16x1024x16x128_S16x2_S16x1024x128_12_02_n_n_02_1_110241128.offCoord (ix3 (n0 := 16) (n1 := 1024) (n2 := 128) b q t) (3 : Fin 4) = t.val
    rw [hs, ho]; omega

end Cert.ReferenceIdeal.RefGather

end
-- ==== Proof.RefCost.lean ====
/-
  The reference computes the cost array: its result, read one operation at a time, is `cost` of the four argument
  arrays whenever every label word is below 91.

  The reference first builds the all-pairs table [16·1024, 16·128]: entry (b·1024 + q, b'·128 + t) is five times the
  L1 distance of box (b, q) to target box (b', t) plus one times the negated softmax of score row (b, q) at the class
  label (b', t) names; the result is that table's diagonal in the image coordinate, b' = b. The lemmas below read the
  stages at coordinates: the softmax row, the flattened row and column numbers, the label words as start indices (a
  word below 91 is not negative, so the wrap-around select keeps it), the box distance, one entry of the table, and
  the diagonal's start indices (the image number itself).
-/
import proofs.«418324_j84490596647596_3_alg».proof.Proof.Gen.ReferenceIdeal.Read
import proofs.«418324_j84490596647596_3_alg».proof.Proof.CostSpec
import proofs.«418324_j84490596647596_3_alg».proof.Proof.RefGather
import Idealize.ShloMosaic.PureOps.Reduce
import Idealize.ShloMosaic.Lib.StableHlo.Predicate

noncomputable section

open scoped BigOperators

namespace Cert.ReferenceIdeal.RefCost

open Idealize.ShloMosaic Idealize.ShloMosaic.ValueIdx Cert.ReferenceIdeal Cert.ReferenceIdeal.Gen Cert.MatchCost

/-! ## The softmax row -/

/-- The row of 91 class scores of image b at query q. -/
abbrev row (x0 : FVec Ideal S16x1024x91 .f32) (b : Fin 16) (q : Fin 1024) : Fin 91 → EReal :=
  fun c => x0 (ix3 (n0 := 16) (n1 := 1024) (n2 := 91) b q c)

theorem reduces_d2 : S16x1024x91.Reduces [2] S16x1024 := by decide

theorem lift_row (b : Fin 16) (q : Fin 1024) (k : Fin 91) :
    reduces_d2.lift (ix2 (n0 := 16) (n1 := 1024) b q) k = ix3 (n0 := 16) (n1 := 1024) (n2 := 91) b q k := by
  funext a
  refine Fin.ext ?_
  match a with
  | ⟨0, _⟩ => rfl
  | ⟨1, _⟩ => rfl
  | ⟨2, _⟩ => rfl

/-- The max-reduce over the classes is the row's maximum. -/
theorem v0_at (x0 : FVec Ideal S16x1024x91 .f32) (b : Fin 16) (q : Fin 1024) :
    Read.val_main_v0 (F := Ideal) x0 (ix2 (n0 := 16) (n1 := 1024) b q) = rowMax (row x0 b q) := by
  unfold Read.val_main_v0
  rw [Host.reduce_eq_fold_single _ _ _ reducesTo_S16x1024x91_S16x1024_d2 reduces_d2 h_S_]
  have hrow : (x0 ∘ reduces_d2.lift (ix2 (n0 := 16) (n1 := 1024) b q)) = row x0 b q :=
    funext fun k => congrArg x0 (lift_row b q k)
  rw [hrow]
  rfl

/-- The maximum with minus infinity once more is still the row's maximum. -/
theorem v2_at (x0 : FVec Ideal S16x1024x91 .f32) (b : Fin 16) (q : Fin 1024) :
    Read.val_main_v2 (F := Ideal) x0 (ix2 (n0 := 16) (n1 := 1024) b q) = rowMax (row x0 b q) := by
  rw [Read.val_main_v2_apply, Read.val_main_v1_apply, Read.val_main_cst_0_apply, v0_at]
  exact max_rowMax _

theorem idx34 (b : Fin 16) (q : Fin 1024) (k : Fin 91) :
    Read.idx_main_v3 (Read.idx_main_v4 (ix3 (n0 := 16) (n1 := 1024) (n2 := 91) b q k)) = ix2 (n0 := 16) (n1 := 1024) b q := by
  funext a
  match a with
  | ⟨0, _⟩ => rfl
  | ⟨1, _⟩ => rfl

/-- The shifted exponential of one score. -/
theorem v6_at (x0 : FVec Ideal S16x1024x91 .f32) (b : Fin 16) (q : Fin 1024) (k : Fin 91) :
    Read.val_main_v6 (F := Ideal) x0 (ix3 (n0 := 16) (n1 := 1024) (n2 := 91) b q k) = expShift (row x0 b q) k := by
  rw [Read.val_main_v6_apply, Read.val_main_v5_apply, Read.val_main_v4_apply, Read.val_main_v3_apply, idx34, v2_at]
  rfl

theorem idx7 (b : Fin 16) (q : Fin 1024) (k : Fin 91) :
    Read.idx_main_v7 (ix2 (n0 := 16) (n1 := 1024) b q) k = ix3 (n0 := 16) (n1 := 1024) (n2 := 91) b q k := by
  funext a
  match a with
  | ⟨0, _⟩ => rfl
  | ⟨1, _⟩ => rfl
  | ⟨2, _⟩ => rfl

/-- The sum of the row's shifted exponentials. -/
theorem v7_at (x0 : FVec Ideal S16x1024x91 .f32) (b : Fin 16) (q : Fin 1024) :
    Read.val_main_v7 (F := Ideal) x0 (ix2 (n0 := 16) (n1 := 1024) b q) = ∑ j : Fin 91, expShift (row x0 b q) j := by
  rw [Read.val_main_v7_apply, Read.val_main_cst_1_apply]
  show Ideal.ofBits .f32 0x00000000#32 + _ = _
  rw [Ideal.ofBits_zero_f32, zero_add]
  refine Finset.sum_congr rfl fun k _ => ?_
  rw [idx7, v6_at]

theorem idx89 (b : Fin 16) (q : Fin 1024) (k : Fin 91) :
    Read.idx_main_v8 (Read.idx_main_v9 (ix3 (n0 := 16) (n1 := 1024) (n2 := 91) b q k)) = ix2 (n0 := 16) (n1 := 1024) b q := by
  funext a
  match a with
  | ⟨0, _⟩ => rfl
  | ⟨1, _⟩ => rfl

/-- The softmax of the row at one class. -/
theorem v10_at (x0 : FVec Ideal S16x1024x91 .f32) (b : Fin 16) (q : Fin 1024) (k : Fin 91) :
    Read.val_main_v10 (F := Ideal) x0 (ix3 (n0 := 16) (n1 := 1024) (n2 := 91) b q k) = softmaxAt (row x0 b q) k := by
  rw [Read.val_main_v10_apply, Read.val_main_v9_apply, Read.val_main_v8_apply, idx89, v7_at, v6_at]
  rfl

/-! ## The flattened row and column numbers -/

/-- The row b·1024 + q of the flattened [16384, ·] arrays. -/
abbrev rowIx (b : Fin 16) (q : Fin 1024) : Fin 16384 := ⟨b.val * 1024 + q.val, by have := b.isLt; have := q.isLt; omega⟩
/-- The column b·128 + t of the flattened [·, 2048] arrays. -/
abbrev colIx (b : Fin 16) (t : Fin 128) : Fin 2048 := ⟨b.val * 128 + t.val, by have := b.isLt; have := t.isLt; omega⟩

theorem idx11 (b : Fin 16) (q : Fin 1024) (k : Fin 91) :
    Read.idx_main_v11 (ix2 (n0 := 16384) (n1 := 91) (rowIx b q) k) = ix3 (n0 := 16) (n1 := 1024) (n2 := 91) b q k := by
  have hb := b.isLt; have hq := q.isLt; have hk := k.isLt
  funext a
  refine Fin.ext ?_
  match a with
  | ⟨0, _⟩ => show ((b.val * 1024 + q.val) * 91 + k.val) / 93184 = b.val; omega
  | ⟨1, _⟩ => show ((b.val * 1024 + q.val) * 91 + k.val) / 91 % 1024 = q.val; omega
  | ⟨2, _⟩ => show ((b.val * 1024 + q.val) * 91 + k.val) % 91 = k.val; omega

/-- The flattened softmax table at row b·1024 + q. -/
theorem v11_at (x0 : FVec Ideal S16x1024x91 .f32) (b : Fin 16) (q : Fin 1024) (k : Fin 91) :
    Read.val_main_v11 (F := Ideal) x0 (ix2 (n0 := 16384) (n1 := 91) (rowIx b q) k) = softmaxAt (row x0 b q) k := by
  rw [Read.val_main_v11_apply, idx11, v10_at]

/-! ## The label words as start indices -/

/-- A select on "the word is negative" keeps a word below 2³¹. -/
theorem select_slt_zero (w a : BitVec 32) (hw : w.toNat < 2 ^ 31) :
    Scalar.select (IntOp.cmpi .slt w 0#32) a w = w := by
  have h0 : IntOp.cmpi .slt w 0#32 = 0#1 := by
    refine eq_zero_of_ne_one fun h => ?_
    have := (StableHlo.Predicate.slt_iff_toNat hw (by decide)).mp h
    exact Nat.not_lt_zero _ this
  rw [h0, select_zero]

theorem idx13 (b : Fin 16) (t : Fin 128) :
    Read.idx_main_v13 (ix1 (n := 2048) (colIx b t)) = ix2 (n0 := 16) (n1 := 128) b t := by
  have hb := b.isLt; have ht := t.isLt
  funext a
  refine Fin.ext ?_
  match a with
  | ⟨0, _⟩ => show (b.val * 128 + t.val) / 128 = b.val; omega
  | ⟨1, _⟩ => show (b.val * 128 + t.val) % 128 = t.val; omega

/-- The wrapped label at column b·128 + t is the label itself, for a label below 91. -/
theorem v19_at (x2 : IVec S16x128 32) (b : Fin 16) (t : Fin 128)
    (h : (x2 (ix2 (n0 := 16) (n1 := 128) b t)).toNat < 91) :
    Read.val_main_v19 (F := Ideal) x2 (ix1 (n := 2048) (colIx b t)) = x2 (ix2 (n0 := 16) (n1 := 128) b t) := by
  rw [Read.val_main_v19_apply, Read.val_main_v16_apply, Read.val_main_v15_apply, Read.val_main_c_apply,
    Read.val_main_v13_apply, idx13]
  exact select_slt_zero _ _ (by omega)

theorem idx20 (n : Fin 2048) :
    Read.idx_main_v20 (ix2 (n0 := 2048) (n1 := 1) n (0 : Fin 1)) = ix1 (n := 2048) n := by
  funext a
  match a with
  | ⟨0, _⟩ => rfl

theorem v20_at (x2 : IVec S16x128 32) (b : Fin 16) (t : Fin 128)
    (h : (x2 (ix2 (n0 := 16) (n1 := 128) b t)).toNat < 91) :
    Read.val_main_v20 (F := Ideal) x2 (ix2 (n0 := 2048) (n1 := 1) (colIx b t) (0 : Fin 1))
      = x2 (ix2 (n0 := 16) (n1 := 128) b t) := by
  rw [Read.val_main_v20_apply, idx20, v19_at x2 b t h]

/-- The class gather at (b·1024 + q, b'·128 + t) is the softmax of row (b, q) at the class the label names. -/
theorem v21_at (x0 : FVec Ideal S16x1024x91 .f32) (x2 : IVec S16x128 32) (b : Fin 16) (q : Fin 1024) (b' : Fin 16) (t : Fin 128)
    (h : (x2 (ix2 (n0 := 16) (n1 := 128) b' t)).toNat < 91) :
    Read.val_main_v21 (F := Ideal) x0 x2 (ix2 (n0 := 16384) (n1 := 2048) (rowIx b q) (colIx b' t))
      = softmaxAt (row x0 b q) ⟨(x2 (ix2 (n0 := 16) (n1 := 128) b' t)).toNat, h⟩ := by
  unfold Read.val_main_v21
  rw [RefGather.gather_class _ _ (rowIx b q) (colIx b' t) ⟨(x2 (ix2 (n0 := 16) (n1 := 128) b' t)).toNat, h⟩
    (by rw [v20_at x2 b' t h]; exact StableHlo.Predicate.toInt_eq_toNat_of_lt (by omega)), v11_at]

/-! ## The box distance -/

theorem idx12 (b : Fin 16) (q : Fin 1024) (n : Fin 2048) (c : Fin 4) :
    Read.idx_main_v12 (Read.idx_main_v23 (Read.idx_main_v25
        (ix3 (n0 := 16384) (n1 := 2048) (n2 := 4) (rowIx b q) n c)))
      = ix3 (n0 := 16) (n1 := 1024) (n2 := 4) b q c := by
  have hb := b.isLt; have hq := q.isLt; have hc := c.isLt
  funext a
  refine Fin.ext ?_
  match a with
  | ⟨0, _⟩ => show ((b.val * 1024 + q.val) * 4 + c.val) / 4096 = b.val; omega
  | ⟨1, _⟩ => show ((b.val * 1024 + q.val) * 4 + c.val) / 4 % 1024 = q.val; omega
  | ⟨2, _⟩ => show ((b.val * 1024 + q.val) * 4 + c.val) % 4 = c.val; omega

theorem idx14 (r : Fin 16384) (b : Fin 16) (t : Fin 128) (c : Fin 4) :
    Read.idx_main_v14 (Read.idx_main_v24 (Read.idx_main_v26
        (ix3 (n0 := 16384) (n1 := 2048) (n2 := 4) r (colIx b t) c)))
      = ix3 (n0 := 16) (n1 := 128) (n2 := 4) b t c := by
  have hb := b.isLt; have ht := t.isLt; have hc := c.isLt
  funext a
  refine Fin.ext ?_
  match a with
  | ⟨0, _⟩ => show ((b.val * 128 + t.val) * 4 + c.val) / 512 = b.val; omega
  | ⟨1, _⟩ => show ((b.val * 128 + t.val) * 4 + c.val) / 4 % 128 = t.val; omega
  | ⟨2, _⟩ => show ((b.val * 128 + t.val) * 4 + c.val) % 4 = c.val; omega

/-- One coordinate's absolute difference. -/
theorem v28_at (x1 : FVec Ideal S16x1024x4 .f32) (x3 : FVec Ideal S16x128x4 .f32) (b : Fin 16) (q : Fin 1024)
    (b' : Fin 16) (t : Fin 128) (c : Fin 4) :
    Read.val_main_v28 (F := Ideal) x1 x3 (ix3 (n0 := 16384) (n1 := 2048) (n2 := 4) (rowIx b q) (colIx b' t) c)
      = absE (x1 (ix3 (n0 := 16) (n1 := 1024) (n2 := 4) b q c) - x3 (ix3 (n0 := 16) (n1 := 128) (n2 := 4) b' t c)) := by
  rw [Read.val_main_v28_apply, Read.val_main_v27_apply, Read.val_main_v25_apply, Read.val_main_v23_apply,
    Read.val_main_v12_apply, idx12, Read.val_main_v26_apply, Read.val_main_v24_apply, Read.val_main_v14_apply, idx14]
  rfl

theorem idx29 (r : Fin 16384) (n : Fin 2048) (c : Fin 4) :
    Read.idx_main_v29 (ix2 (n0 := 16384) (n1 := 2048) r n) c = ix3 (n0 := 16384) (n1 := 2048) (n2 := 4) r n c := by
  funext a
  match a with
  | ⟨0, _⟩ => rfl
  | ⟨1, _⟩ => rfl
  | ⟨2, _⟩ => rfl

/-- The box distance as the sum from zero over the four coordinates. -/
theorem v29_at (x1 : FVec Ideal S16x1024x4 .f32) (x3 : FVec Ideal S16x128x4 .f32) (b : Fin 16) (q : Fin 1024)
    (b' : Fin 16) (t : Fin 128) :
    Read.val_main_v29 (F := Ideal) x1 x3 (ix2 (n0 := 16384) (n1 := 2048) (rowIx b q) (colIx b' t))
      = Ideal.ofBits .f32 0x00000000#32
        + ∑ c : Fin 4, absE (x1 (ix3 (n0 := 16) (n1 := 1024) (n2 := 4) b q c) - x3 (ix3 (n0 := 16) (n1 := 128) (n2 := 4) b' t c)) := by
  rw [Read.val_main_v29_apply, Read.val_main_cst_3_apply]
  refine congrArg (_ + ·) (Finset.sum_congr rfl fun c _ => ?_)
  rw [idx29, v28_at]

/-! ## One entry of the all-pairs cost table -/

/-- The all-pairs table at (b·1024 + q, b'·128 + t): the cost of query (b, q) against target (b', t). -/
theorem v34_at (x0 : FVec Ideal S16x1024x91 .f32) (x1 : FVec Ideal S16x1024x4 .f32) (x2 : IVec S16x128 32)
    (x3 : FVec Ideal S16x128x4 .f32) (b : Fin 16) (q : Fin 1024) (b' : Fin 16) (t : Fin 128)
    (h : (x2 (ix2 (n0 := 16) (n1 := 128) b' t)).toNat < 91) :
    Read.val_main_v34 (F := Ideal) x0 x1 x2 x3 (ix2 (n0 := 16384) (n1 := 2048) (rowIx b q) (colIx b' t))
      = costAt (row x0 b q) (fun c : Fin 4 => x1 (ix3 (n0 := 16) (n1 := 1024) (n2 := 4) b q c))
          (fun c : Fin 4 => x3 (ix3 (n0 := 16) (n1 := 128) (n2 := 4) b' t c)) (x2 (ix2 (n0 := 16) (n1 := 128) b' t)) := by
  rw [Read.val_main_v34_apply, Read.val_main_v31_apply, Read.val_main_v33_apply, Read.val_main_v30_apply,
    Read.val_main_cst_4_apply, Read.val_main_v32_apply, Read.val_main_cst_5_apply, v29_at, Read.val_main_v22_apply,
    v21_at x0 x2 b q b' t h]
  exact sum_form (row x0 b q) _ _ _ ⟨_, h⟩ rfl

theorem idx35 (b : Fin 16) (q : Fin 1024) (b' : Fin 16) (t : Fin 128) :
    Read.idx_main_v35 (ix4 (n0 := 16) (n1 := 1024) (n2 := 16) (n3 := 128) b q b' t)
      = ix2 (n0 := 16384) (n1 := 2048) (rowIx b q) (colIx b' t) := by
  have hb := b.isLt; have hq := q.isLt; have hb' := b'.isLt; have ht := t.isLt
  funext a
  refine Fin.ext ?_
  match a with
  | ⟨0, _⟩ =>
    show (((b.val * 1024 + q.val) * 16 + b'.val) * 128 + t.val) / 2048 = b.val * 1024 + q.val; omega
  | ⟨1, _⟩ =>
    show (((b.val * 1024 + q.val) * 16 + b'.val) * 128 + t.val) % 2048 = b'.val * 128 + t.val; omega

/-! ## The diagonal's start indices -/

theorem v42_at (b : Fin 16) : Read.val_main_v42 (F := Ideal) (ix1 (n := 16) b) = BitVec.ofNat 32 b.val := by
  have hb := b.isLt
  rw [Read.val_main_v42_apply, Read.val_main_v39_apply, Read.val_main_v38_apply, Read.val_main_c_6_apply,
    Read.val_main_v36_apply]
  exact select_slt_zero _ _ (by rw [BitVec.toNat_ofNat]; show b.val % 2 ^ 32 < 2 ^ 31; omega)

theorem v47_at (b : Fin 16) : Read.val_main_v47 (F := Ideal) (ix1 (n := 16) b) = BitVec.ofNat 32 b.val := by
  have hb := b.isLt
  rw [Read.val_main_v47_apply, Read.val_main_v44_apply, Read.val_main_v43_apply, Read.val_main_c_8_apply,
    Read.val_main_v37_apply]
  exact select_slt_zero _ _ (by rw [BitVec.toNat_ofNat]; show b.val % 2 ^ 32 < 2 ^ 31; omega)

theorem idx48 (b : Fin 16) : Read.idx_main_v48 (ix2 (n0 := 16) (n1 := 1) b (0 : Fin 1)) = ix1 (n := 16) b := by
  funext a
  match a with
  | ⟨0, _⟩ => rfl

/-- The first start index at row b is b. -/
theorem v50_at0 (b : Fin 16) :
    Read.val_main_v50 (F := Ideal) (ix2 (n0 := 16) (n1 := 2) b (0 : Fin 2)) = BitVec.ofNat 32 b.val := by
  unfold Read.val_main_v50
  rw [concatenate_pair_apply_left (t := S16x2) (s₁ := S16x1) (s₂ := S16x1) (1 : Fin 2) _ _ concatenates_S16x1_S16x1_S16x2_d1
    (ix2 (n0 := 16) (n1 := 2) b (0 : Fin 2)) rfl (ix2 (n0 := 16) (n1 := 1) b (0 : Fin 1))
    (fun a => match a with | ⟨0, _⟩ => rfl | ⟨1, _⟩ => rfl)]
  rw [Read.val_main_v48_apply, idx48, v42_at]

/-- The second start index at row b is b. -/
theorem v50_at1 (b : Fin 16) :
    Read.val_main_v50 (F := Ideal) (ix2 (n0 := 16) (n1 := 2) b (1 : Fin 2)) = BitVec.ofNat 32 b.val := by
  unfold Read.val_main_v50
  rw [concatenate_pair_apply_right (t := S16x2) (s₁ := S16x1) (s₂ := S16x1) (1 : Fin 2) _ _ concatenates_S16x1_S16x1_S16x2_d1
    (ix2 (n0 := 16) (n1 := 2) b (1 : Fin 2)) rfl rfl (ix2 (n0 := 16) (n1 := 1) b (0 : Fin 1))
    (fun a => match a with | ⟨0, _⟩ => fun _ => rfl | ⟨1, _⟩ => fun hne => absurd rfl hne) rfl]
  rw [Read.val_main_v49_apply]
  show Read.val_main_v47 (F := Ideal) (Read.idx_main_v49 (ix2 (n0 := 16) (n1 := 1) b (0 : Fin 1))) = _
  rw [show Read.idx_main_v49 (ix2 (n0 := 16) (n1 := 1) b (0 : Fin 1)) = ix1 (n := 16) b from idx48 b, v47_at]

/-- The reference's result array is the cost array, for labels that name classes. -/
theorem ref_is_cost (x0 : FVec Ideal S16x1024x91 .f32) (x1 : FVec Ideal S16x1024x4 .f32) (x2 : IVec S16x128 32)
    (x3 : FVec Ideal S16x128x4 .f32) (hlab : ∀ i : S16x128.Idx, (x2 i).toNat < 91) :
    Cert.ReferenceIdeal.Read.val_main_v51 (F := Ideal) x0 x1 x2 x3 = cost x0 x1 x2 x3 := by
  funext i
  obtain ⟨b, q, t, rfl⟩ : ∃ (b : Fin 16) (q : Fin 1024) (t : Fin 128), i = ix3 b q t := ⟨i 0, i 1, i 2, eq_ix3 i⟩
  have hb := b.isLt
  unfold Read.val_main_v51
  rw [RefGather.gather_diag _ _ b q t
    (by rw [v50_at0]; exact StableHlo.Predicate.toInt_ofNat_small _ (by omega))
    (by rw [v50_at1]; exact StableHlo.Predicate.toInt_ofNat_small _ (by omega)),
    Read.val_main_v35_apply, idx35, v34_at x0 x1 x2 x3 b q b t (hlab _)]
  rfl

end Cert.ReferenceIdeal.RefCost

end
-- ==== Proof.BlockCost.lean ====
/-
  One entry of a block the kernel writes.

  A grid point holds four images. For image `bb` of the block, query `q` and target `tt` the body leaves
      5 · (((|b₀ − t₀| + |b₁ − t₁|) + |b₂ − t₂|) + |b₃ − t₃|)  −  ∑ c, p(bb,q,c) · e(bb,c,tt)
  where `b`, `t` are the predicted and the target box (both stored coordinate-major, so coordinate `c` of query
  `q` sits at (bb, c, q)), `p` is the row softmax of the scores — the exponential of the score minus the row's
  maximum, over the row's sum of those — and `e(bb,c,tt)` is 1 when target `tt`'s label word is the class number
  `c` and 0 otherwise (a comparison with the class iota, widened and converted). The product with that one-hot
  matrix is a sum over the 91 classes that keeps exactly the label's class, or nothing for a word that names no
  class: `onehot_sum`. So the entry is `costAt` of the row, the two boxes and the label word.

  The steps: the keepdims column broadcast read at an index (`spread_entry`), the row maximum and the row sum
  as a fold and a sum over `Fin 91` (`rowMaxVec_entry`, `rowSumVec_entry`), the softmax entry (`probs_entry`),
  the one-hot entry (`onehot_entry`), the batched product as a sum over the classes (`product_entry`), and the
  assembly (`classTerm_entry`, `block_is_cost`).
-/
import proofs.«418324_j84490596647596_3_alg».proof.Proof.Gen.KernelIdeal.Value
import proofs.«418324_j84490596647596_3_alg».proof.Proof.CostSpec
import Idealize.ShloMosaic.Lib.StackMember
import Idealize.ShloMosaic.Lib.StableHlo.Predicate
import Idealize.ShloMosaic.Lib.Pipeline.Value
import Idealize.ShloMosaic.PureOps.Ideal.Laws

noncomputable section

namespace Cert.KernelIdeal.BlockValue

open Idealize.ShloMosaic Idealize.ShloMosaic.ValueIdx Cert.KernelIdeal Cert.KernelIdeal.Gen Cert.KernelIdeal.Value Cert.MatchCost

/-! ## The pieces of the softmax-and-gather payload, named -/

/-- The row maxima of a block of scores. -/
abbrev rowMaxVec (x : FVec Ideal S4x1024x91 .f32) : FVec Ideal S4x1024 .f32 :=
  multiReduction .maximumf [2] S4x1024 x 0xFF800000#32 reduces_S4x1024x91_S4x1024 (.inl rfl) rfl

/-- The row sums of a block. -/
abbrev rowSumVec (y : FVec Ideal S4x1024x91 .f32) : FVec Ideal S4x1024 .f32 :=
  multiReduction .add [2] S4x1024 y 0x00000000#32 reduces_S4x1024x91_S4x1024 (.inl rfl) rfl

/-- A per-row value copied along the row: [4,1024] as [4,1024,1], broadcast to [4,1024,91]. -/
abbrev spread (v : FVec Ideal S4x1024 .f32) : FVec Ideal S4x1024x91 .f32 :=
  broadcastTo S4x1024x91 (shapeCast S4x1024x1 v shapeCasts_S4x1024_S4x1024x1) broadcasts_S4x1024x1_S4x1024x91

/-- The exponentials of the scores after each row's maximum is subtracted. -/
abbrev shifted (x : FVec Ideal S4x1024x91 .f32) : FVec Ideal S4x1024x91 .f32 :=
  exp (subf x (spread (rowMaxVec x)))

/-- The row softmax, narrowed for the matrix unit (the narrowing is the identity on the extended reals). -/
abbrev probs (x : FVec Ideal S4x1024x91 .f32) : FVec Ideal S4x1024x91 .bf16 :=
  truncf .bf16 (divf (shifted x) (spread (rowSumVec (shifted x)))) bitsLt_bf16_f32

/-- The one-hot matrix of the labels: entry (bb, c, tt) compares target `tt`'s label with the class iota `c`. -/
abbrev onehot (w : Vec Ideal S4x1x128 .i32) : FVec Ideal S4x91x128 .bf16 :=
  truncf .bf16 (sitofp .f32 (extui 32 (cmpi .eq
    (broadcastTo S4x91x128 (shapeCast S4x1x128 w shapeCasts_S4x1x128_S4x1x128) broadcasts_S4x1x128_S4x91x128)
    (iota .tc S4x91x128 32 [1] iota_S4x91x128_d1_w32)) natLt_1_32)) bitsLt_bf16_f32

/-- The payload is the product of the softmax with the one-hot matrix, accumulated into zeros. -/
theorem pay2_eq (P2 : Vec Ideal S4x1024x91 .f32) (P3 : Vec Ideal S4x1x128 .i32) :
    k0_pay2 (F := Ideal) P2 P3
      = matmul dot_S4x1024x91_S4x91x128_S4x1024x128_2_1_1_2_0_0 none (probs P2) (onehot P3)
          (constant S4x1024x128 .f32 0x00000000#32) := rfl

/-! ## Each piece at an index -/

/-- The copied value at (bb, q, k) is the per-row value at (bb, q). -/
theorem spread_entry (v : FVec Ideal S4x1024 .f32) (bb : Fin 4) (q : Fin 1024) (k : Fin 91) :
    spread v (ix3 (n0 := 4) (n1 := 1024) (n2 := 91) bb q k) = v (ix2 (n0 := 4) (n1 := 1024) bb q) := by
  refine (broadcastTo_apply _ _ (ix3 (n0 := 4) (n1 := 1024) (n2 := 91) bb q k)
    (ix3 (n0 := 4) (n1 := 1024) (n2 := 1) bb q (0 : Fin 1)) (fun a => match a with
      | ⟨0, _⟩ => by show bb.val = if (4 : Nat) = 1 then 0 else bb.val; rw [if_neg (by decide)]
      | ⟨1, _⟩ => by show q.val = if (1024 : Nat) = 1 then 0 else q.val; rw [if_neg (by decide)]
      | ⟨2, _⟩ => by show 0 = if (1 : Nat) = 1 then 0 else k.val; rw [if_pos rfl])).trans ?_
  exact shapeCast_apply v shapeCasts_S4x1024_S4x1024x1 (ix3 (n0 := 4) (n1 := 1024) (n2 := 1) bb q (0 : Fin 1))
    (ix2 (n0 := 4) (n1 := 1024) bb q) (by
      rw [Shape.rowMajor_val_two, Shape.rowMajor_val_three]
      show bb.val * 1024 + q.val = (bb.val * 1024 + q.val) * 1 + 0
      omega)

/-- The row maximum at (bb, q) is the fold of `max` over the row. -/
theorem rowMaxVec_entry (x : FVec Ideal S4x1024x91 .f32) (bb : Fin 4) (q : Fin 1024) :
    rowMaxVec x (ix2 (n0 := 4) (n1 := 1024) bb q)
      = rowMax (fun k : Fin 91 => x (ix3 (n0 := 4) (n1 := 1024) (n2 := 91) bb q k)) := by
  refine (Ideal.multiReduction_maximumf_single x _ reduces_S4x1024x91_S4x1024 _ _ _).trans ?_
  exact Finset.fold_congr (fun k _ => congrArg x (funext fun a => Fin.ext (by
    match a with | ⟨0, _⟩ => rfl | ⟨1, _⟩ => rfl | ⟨2, _⟩ => rfl)))

/-- The row sum at (bb, q) is the sum over the row. -/
theorem rowSumVec_entry (y : FVec Ideal S4x1024x91 .f32) (bb : Fin 4) (q : Fin 1024) :
    rowSumVec y (ix2 (n0 := 4) (n1 := 1024) bb q)
      = ∑ k : Fin 91, y (ix3 (n0 := 4) (n1 := 1024) (n2 := 91) bb q k) := by
  refine (Ideal.multiReduction_add_single y _ reduces_S4x1024x91_S4x1024 _ _ _).trans ?_
  exact Finset.sum_congr rfl (fun k _ => congrArg y (funext fun a => Fin.ext (by
    match a with | ⟨0, _⟩ => rfl | ⟨1, _⟩ => rfl | ⟨2, _⟩ => rfl)))

/-- The shifted exponential at (bb, q, k). -/
theorem shifted_entry (x : FVec Ideal S4x1024x91 .f32) (bb : Fin 4) (q : Fin 1024) (k : Fin 91) :
    shifted x (ix3 (n0 := 4) (n1 := 1024) (n2 := 91) bb q k)
      = expShift (fun k : Fin 91 => x (ix3 (n0 := 4) (n1 := 1024) (n2 := 91) bb q k)) k := by
  show Ideal.exp (x (ix3 (n0 := 4) (n1 := 1024) (n2 := 91) bb q k)
    - spread (rowMaxVec x) (ix3 (n0 := 4) (n1 := 1024) (n2 := 91) bb q k)) = _
  rw [spread_entry, rowMaxVec_entry]
  rfl

/-- The softmax at (bb, q, k). -/
theorem probs_entry (x : FVec Ideal S4x1024x91 .f32) (bb : Fin 4) (q : Fin 1024) (k : Fin 91) :
    probs x (ix3 (n0 := 4) (n1 := 1024) (n2 := 91) bb q k)
      = softmaxAt (fun k : Fin 91 => x (ix3 (n0 := 4) (n1 := 1024) (n2 := 91) bb q k)) k := by
  show Ideal.div (shifted x (ix3 (n0 := 4) (n1 := 1024) (n2 := 91) bb q k))
    (spread (rowSumVec (shifted x)) (ix3 (n0 := 4) (n1 := 1024) (n2 := 91) bb q k)) = _
  rw [spread_entry, rowSumVec_entry, shifted_entry]
  unfold softmaxAt
  exact congrArg _ (Finset.sum_congr rfl fun j _ => shifted_entry x bb q j)

/-- The one-hot entry at (bb, c, tt): 1 when the label word of target `tt` is the class number `c`, else 0. -/
theorem onehot_entry (w : Vec Ideal S4x1x128 .i32) (bb : Fin 4) (c : Fin 91) (tt : Fin 128) :
    onehot w (ix3 (n0 := 4) (n1 := 91) (n2 := 128) bb c tt)
      = if w (ix3 (n0 := 4) (n1 := 1) (n2 := 128) bb (0 : Fin 1) tt) = BitVec.ofNat 32 c.val then (1 : EReal) else 0 := by
  have hb : broadcastTo S4x91x128 (shapeCast S4x1x128 w shapeCasts_S4x1x128_S4x1x128) broadcasts_S4x1x128_S4x91x128
      (ix3 (n0 := 4) (n1 := 91) (n2 := 128) bb c tt) = w (ix3 (n0 := 4) (n1 := 1) (n2 := 128) bb (0 : Fin 1) tt) := by
    refine (broadcastTo_apply _ _ (ix3 (n0 := 4) (n1 := 91) (n2 := 128) bb c tt)
      (ix3 (n0 := 4) (n1 := 1) (n2 := 128) bb (0 : Fin 1) tt) (fun a => match a with
        | ⟨0, _⟩ => by show bb.val = if (4 : Nat) = 1 then 0 else bb.val; rw [if_neg (by decide)]
        | ⟨1, _⟩ => by show 0 = if (1 : Nat) = 1 then 0 else c.val; rw [if_pos rfl]
        | ⟨2, _⟩ => by show tt.val = if (128 : Nat) = 1 then 0 else tt.val; rw [if_neg (by decide)])).trans ?_
    exact shapeCast_apply w shapeCasts_S4x1x128_S4x1x128 _ _ rfl
  have hi : iota .tc S4x91x128 32 [1] iota_S4x91x128_d1_w32 (ix3 (n0 := 4) (n1 := 91) (n2 := 128) bb c tt)
      = BitVec.ofNat 32 c.val := iota_single_apply .tc S4x91x128 32 1 iota_S4x91x128_d1_w32 _
  have e : onehot w (ix3 (n0 := 4) (n1 := 91) (n2 := 128) bb c tt)
      = ((((IntOp.cmpi .eq
          (broadcastTo S4x91x128 (shapeCast S4x1x128 w shapeCasts_S4x1x128_S4x1x128) broadcasts_S4x1x128_S4x91x128
            (ix3 (n0 := 4) (n1 := 91) (n2 := 128) bb c tt))
          (iota .tc S4x91x128 32 [1] iota_S4x91x128_d1_w32 (ix3 (n0 := 4) (n1 := 91) (n2 := 128) bb c tt))).setWidth 32).toInt : ℝ) : EReal) := rfl
  rw [e, hb, hi]
  by_cases h : w (ix3 (n0 := 4) (n1 := 1) (n2 := 128) bb (0 : Fin 1) tt) = BitVec.ofNat 32 c.val
  · rw [if_pos h, StableHlo.Predicate.cmpi_eq_iff.mpr h]
    have : ((1#1 : BitVec 1).setWidth 32).toInt = 1 := by decide
    rw [this]; norm_num
  · rw [if_neg h, eq_zero_of_ne_one (fun e1 => h (StableHlo.Predicate.cmpi_eq_iff.mp e1))]
    have : ((0#1 : BitVec 1).setWidth 32).toInt = 0 := by decide
    rw [this]; norm_num

/-- The batched product into zeros at (bb, q, tt) is the sum over the classes of the two factors' products. -/
theorem product_entry (A : FVec Ideal S4x1024x91 .bf16) (B : FVec Ideal S4x91x128 .bf16) (bb : Fin 4) (q : Fin 1024)
    (tt : Fin 128) :
    matmul dot_S4x1024x91_S4x91x128_S4x1024x128_2_1_1_2_0_0 none A B (constant S4x1024x128 .f32 0x00000000#32)
        (ix3 (n0 := 4) (n1 := 1024) (n2 := 128) bb q tt)
      = ∑ c : Fin 91, A (ix3 (n0 := 4) (n1 := 1024) (n2 := 91) bb q c) * B (ix3 (n0 := 4) (n1 := 91) (n2 := 128) bb c tt) := by
  rw [matmul_zero_eq_dotGeneral]
  exact StackMember.dotGeneral_stack_apply dot_S4x1024x91_S4x91x128_S4x1024x128_2_1_1_2_0_0_wf none A B bb q tt

/-! ## The class term and the whole entry -/

/-- The payload at (bb, q, tt) is the probability of the class the label word names. -/
theorem classTerm_entry (P2 : Vec Ideal S4x1024x91 .f32) (P3 : Vec Ideal S4x1x128 .i32) (bb : Fin 4) (q : Fin 1024)
    (tt : Fin 128) :
    k0_pay2 (F := Ideal) P2 P3 (ix3 (n0 := 4) (n1 := 1024) (n2 := 128) bb q tt)
      = classProb (fun k : Fin 91 => P2 (ix3 (n0 := 4) (n1 := 1024) (n2 := 91) bb q k))
          (P3 (ix3 (n0 := 4) (n1 := 1) (n2 := 128) bb (0 : Fin 1) tt)) := by
  rw [pay2_eq, product_entry]
  unfold classProb
  refine (Finset.sum_congr rfl fun c _ => ?_).trans
    (onehot_sum (softmaxAt (fun k : Fin 91 => P2 (ix3 (n0 := 4) (n1 := 1024) (n2 := 91) bb q k)))
      (fun c : Fin 91 => if P3 (ix3 (n0 := 4) (n1 := 1) (n2 := 128) bb (0 : Fin 1) tt) = BitVec.ofNat 32 c.val
        then (1 : EReal) else 0)
      (P3 (ix3 (n0 := 4) (n1 := 1) (n2 := 128) bb (0 : Fin 1) tt)) (fun _ => rfl))
  rw [probs_entry, onehot_entry]

/-- The block's entry (bb, q, tt) from the loaded blocks: boxes `P0` [4,4,1024], target boxes `P1` [4,4,128],
    scores `P2` [4,1024,91], labels `P3` [4,1,128]. -/
theorem block_is_cost (P0 : Vec Ideal S4x4x1024 .f32) (P1 : Vec Ideal S4x4x128 .f32) (P2 : Vec Ideal S4x1024x91 .f32)
    (P3 : Vec Ideal S4x1x128 .i32) (bb : Fin 4) (q : Fin 1024) (tt : Fin 128) :
    E4 (F := Ideal) P0 P1 P2 P3 (ix3 (n0 := 4) (n1 := 1024) (n2 := 128) bb q tt)
      = costAt (fun k : Fin 91 => P2 (ix3 (n0 := 4) (n1 := 1024) (n2 := 91) bb q k))
          (fun c : Fin 4 => P0 (ix3 (n0 := 4) (n1 := 4) (n2 := 1024) bb c q))
          (fun c : Fin 4 => P1 (ix3 (n0 := 4) (n1 := 4) (n2 := 128) bb c tt))
          (P3 (ix3 (n0 := 4) (n1 := 1) (n2 := 128) bb (0 : Fin 1) tt)) := by
  have hy : ix4_8 (ix3 (n0 := 4) (n1 := 1024) (n2 := 128) bb q tt) = ix3 (n0 := 4) (n1 := 1024) (n2 := 128) bb q tt :=
    funext fun a => Fin.ext (by match a with | ⟨0, _⟩ => rfl | ⟨1, _⟩ => rfl | ⟨2, _⟩ => rfl)
  show (Ideal.ofBits .f32 0x40A00000#32
      * (((absE (P0 (ix4_0 (ix3 (n0 := 4) (n1 := 1024) (n2 := 128) bb q tt)) - P1 (ix4_1 (ix3 (n0 := 4) (n1 := 1024) (n2 := 128) bb q tt)))
          + absE (P0 (ix4_2 (ix3 (n0 := 4) (n1 := 1024) (n2 := 128) bb q tt)) - P1 (ix4_3 (ix3 (n0 := 4) (n1 := 1024) (n2 := 128) bb q tt))))
          + absE (P0 (ix4_4 (ix3 (n0 := 4) (n1 := 1024) (n2 := 128) bb q tt)) - P1 (ix4_5 (ix3 (n0 := 4) (n1 := 1024) (n2 := 128) bb q tt))))
          + absE (P0 (ix4_6 (ix3 (n0 := 4) (n1 := 1024) (n2 := 128) bb q tt)) - P1 (ix4_7 (ix3 (n0 := 4) (n1 := 1024) (n2 := 128) bb q tt)))))
      - k0_pay2 (F := Ideal) P2 P3 (ix4_8 (ix3 (n0 := 4) (n1 := 1024) (n2 := 128) bb q tt)) = _
  have hp0 : ix4_0 (ix3 (n0 := 4) (n1 := 1024) (n2 := 128) bb q tt) = ix3 (n0 := 4) (n1 := 4) (n2 := 1024) bb (0 : Fin 4) q :=
    funext fun a => Fin.ext (by match a with | ⟨0, _⟩ => rfl | ⟨1, _⟩ => rfl | ⟨2, _⟩ => rfl)
  have ht0 : ix4_1 (ix3 (n0 := 4) (n1 := 1024) (n2 := 128) bb q tt) = ix3 (n0 := 4) (n1 := 4) (n2 := 128) bb (0 : Fin 4) tt :=
    funext fun a => Fin.ext (by match a with | ⟨0, _⟩ => rfl | ⟨1, _⟩ => rfl | ⟨2, _⟩ => rfl)
  have hp1 : ix4_2 (ix3 (n0 := 4) (n1 := 1024) (n2 := 128) bb q tt) = ix3 (n0 := 4) (n1 := 4) (n2 := 1024) bb (1 : Fin 4) q :=
    funext fun a => Fin.ext (by match a with | ⟨0, _⟩ => rfl | ⟨1, _⟩ => rfl | ⟨2, _⟩ => rfl)
  have ht1 : ix4_3 (ix3 (n0 := 4) (n1 := 1024) (n2 := 128) bb q tt) = ix3 (n0 := 4) (n1 := 4) (n2 := 128) bb (1 : Fin 4) tt :=
    funext fun a => Fin.ext (by match a with | ⟨0, _⟩ => rfl | ⟨1, _⟩ => rfl | ⟨2, _⟩ => rfl)
  have hp2 : ix4_4 (ix3 (n0 := 4) (n1 := 1024) (n2 := 128) bb q tt) = ix3 (n0 := 4) (n1 := 4) (n2 := 1024) bb (2 : Fin 4) q :=
    funext fun a => Fin.ext (by match a with | ⟨0, _⟩ => rfl | ⟨1, _⟩ => rfl | ⟨2, _⟩ => rfl)
  have ht2 : ix4_5 (ix3 (n0 := 4) (n1 := 1024) (n2 := 128) bb q tt) = ix3 (n0 := 4) (n1 := 4) (n2 := 128) bb (2 : Fin 4) tt :=
    funext fun a => Fin.ext (by match a with | ⟨0, _⟩ => rfl | ⟨1, _⟩ => rfl | ⟨2, _⟩ => rfl)
  have hp3 : ix4_6 (ix3 (n0 := 4) (n1 := 1024) (n2 := 128) bb q tt) = ix3 (n0 := 4) (n1 := 4) (n2 := 1024) bb (3 : Fin 4) q :=
    funext fun a => Fin.ext (by match a with | ⟨0, _⟩ => rfl | ⟨1, _⟩ => rfl | ⟨2, _⟩ => rfl)
  have ht3 : ix4_7 (ix3 (n0 := 4) (n1 := 1024) (n2 := 128) bb q tt) = ix3 (n0 := 4) (n1 := 4) (n2 := 128) bb (3 : Fin 4) tt :=
    funext fun a => Fin.ext (by match a with | ⟨0, _⟩ => rfl | ⟨1, _⟩ => rfl | ⟨2, _⟩ => rfl)
  rw [hy, classTerm_entry, hp0, ht0, hp1, ht1, hp2, ht2, hp3, ht3]
  rfl

end Cert.KernelIdeal.BlockValue

end
-- ==== Proof.KernelArray.lean ====
/-
  From blocks to the array: grid point `t` writes images 4t … 4t+3 of the cost array, the four points cover it, so
  after the run the kernel's result array is `cost` of the four argument arrays.
-/
import proofs.«418324_j84490596647596_3_alg».proof.Proof.Gen.KernelIdeal.Value
import proofs.«418324_j84490596647596_3_alg».proof.Proof.CostSpec
import proofs.«418324_j84490596647596_3_alg».proof.Proof.BlockCost

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.Value Cert.MatchCost

variable (m : (ℓ : Loc nD τ sig) → Buf (Elt Ideal) ℓ) (ρ : Dev nD → PrngReg)

/-- The zero offsets of a rank-3 rectangle, as the constant function. -/
theorem zeros3 : (![0, 0, 0] : Fin 3 → Nat) = fun _ => 0 := funext fun a => by fin_cases a <;> rfl

/-! ## The arrays the host prepared for the kernel, read at an index -/

/-- The staged predicted boxes are the argument's with the coordinate axis moved before the query axis. -/
theorem boxes_staged (c : Dev nD) : (V m c main_v1 : S16x4x1024.Idx → EReal)
    = transpose S16x4x1024 [0, 2, 1] (m ((c : Thread nD τ).loc main_arg1)) transposes_S16x1024x4_S16x4x1024_0_2_1 := by
  dsimp only [Gen.V, Gen.hostOps0]; after_results; all_goals rfl

/-- The staged target boxes are the argument's with the coordinate axis moved before the target axis. -/
theorem tboxes_staged (c : Dev nD) : (V m c main_v2 : S16x4x128.Idx → EReal)
    = transpose S16x4x128 [0, 2, 1] (m ((c : Thread nD τ).loc main_arg3)) transposes_S16x128x4_S16x4x128_0_2_1 := by
  dsimp only [Gen.V, Gen.hostOps0]; after_results; all_goals rfl

/-- The staged labels are the argument's with a unit axis put in the middle. -/
theorem labels_staged (c : Dev nD) : (V m c main_v0 : S16x1x128.Idx → BitVec 32)
    = shapeCast S16x1x128 (m ((c : Thread nD τ).loc main_arg2)) shapeCasts_S16x128_S16x1x128 := by
  dsimp only [Gen.V, Gen.hostOps0]; after_results; all_goals rfl

/-- Staged box coordinate `ch` of query `q` in image `b` is the argument's entry (b, q, ch). -/
theorem boxes_staged_apply (c : Dev nD) (j : S16x4x1024.Idx) (k : S16x1024x4.Idx)
    (h0 : (k 0).val = (j 0).val) (h1 : (k 2).val = (j 1).val) (h2 : (k 1).val = (j 2).val) :
    (V m c main_v1 : S16x4x1024.Idx → EReal) j
      = (m ((c : Thread nD τ).loc main_arg1) : S16x1024x4.Idx → EReal) k := by
  rw [boxes_staged]
  refine transpose_apply _ _ _ j k fun a => ?_
  match a with
  | ⟨0, _⟩ => exact h0
  | ⟨1, _⟩ => exact h1
  | ⟨2, _⟩ => exact h2

/-- Staged target-box coordinate `ch` of target `t` in image `b` is the argument's entry (b, t, ch). -/
theorem tboxes_staged_apply (c : Dev nD) (j : S16x4x128.Idx) (k : S16x128x4.Idx)
    (h0 : (k 0).val = (j 0).val) (h1 : (k 2).val = (j 1).val) (h2 : (k 1).val = (j 2).val) :
    (V m c main_v2 : S16x4x128.Idx → EReal) j
      = (m ((c : Thread nD τ).loc main_arg3) : S16x128x4.Idx → EReal) k := by
  rw [tboxes_staged]
  refine transpose_apply _ _ _ j k fun a => ?_
  match a with
  | ⟨0, _⟩ => exact h0
  | ⟨1, _⟩ => exact h1
  | ⟨2, _⟩ => exact h2

/-- The staged label of target `t` in image `b` is the argument's entry (b, t). -/
theorem labels_staged_apply (c : Dev nD) (j : S16x1x128.Idx) (k : S16x128.Idx)
    (h0 : (k 0).val = (j 0).val) (h1 : (k 1).val = (j 2).val) :
    (V m c main_v0 : S16x1x128.Idx → BitVec 32) j
      = (m ((c : Thread nD τ).loc main_arg2) : S16x128.Idx → BitVec 32) k := by
  rw [labels_staged]
  refine shapeCast_apply _ _ j k ?_
  rw [Shape.rowMajor_val_two, Shape.rowMajor_val_three]
  have hj : (j 1).val < 1 := (j 1).isLt
  show (k 0).val * 128 + (k 1).val = ((j 0).val * 1 + (j 1).val) * 128 + (j 2).val
  omega

/-! ## One grid point: the blocks it reads and the block it writes -/

/-- The printed index maps, decided over the four grid points: every window's block index at point `t` is
    `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The body's block from arbitrary input blocks: the four loads read the whole blocks, so the block is the
    index-by-index function of them. -/
theorem body_block (x0 : Vec Ideal S4x1024x91 .f32) (x1 : Vec Ideal S4x4x1024 .f32) (x2 : Vec Ideal S4x1x128 .i32)
    (x3 : Vec Ideal S4x4x128 .f32) (y : S4x1024x128.Idx) :
    out0_4 x0 x1 x2 x3 y = E4 (F := Ideal) x1 x3 x0 x2 y := by
  unfold out0_4
  simp only [View.ld_unit_zero (S := S4x1024x91) zeros3, View.ld_unit_zero (S := S4x4x1024) zeros3,
    View.ld_unit_zero (S := S4x1x128) zeros3, View.ld_unit_zero (S := S4x4x128) zeros3]
  exact canon4_eq x1 x3 x0 x2 y

/-- Entry (image-in-block, query, target) of the body's block is the matching cost of that image's score row at
    the query, its box there, the target's box and the target's label, all read off the input blocks. -/
theorem body_entry (x0 : Vec Ideal S4x1024x91 .f32) (x1 : Vec Ideal S4x4x1024 .f32) (x2 : Vec Ideal S4x1x128 .i32)
    (x3 : Vec Ideal S4x4x128 .f32) (bb : Fin 4) (q : Fin 1024) (tt : Fin 128) :
    out0_4 x0 x1 x2 x3 (ix3 (n0 := 4) (n1 := 1024) (n2 := 128) bb q tt)
      = costAt (fun k : Fin 91 => x0 (ix3 (n0 := 4) (n1 := 1024) (n2 := 91) bb q k))
          (fun ch : Fin 4 => x1 (ix3 (n0 := 4) (n1 := 4) (n2 := 1024) bb ch q))
          (fun ch : Fin 4 => x3 (ix3 (n0 := 4) (n1 := 4) (n2 := 128) bb ch tt))
          (x2 (ix3 (n0 := 4) (n1 := 1) (n2 := 128) bb (0 : Fin 1) tt)) :=
  (body_block x0 x1 x2 x3 _).trans (BlockValue.block_is_cost x1 x3 x0 x2 bb q tt)

/-- Point `t`'s block of scores is images `4t … 4t+3` of the score argument. -/
theorem scores_block (c : Dev nD) (t : Fin cfg0.N) (x : S4x1024x91.Idx) (k : S16x1024x91.Idx)
    (h0 : (k 0).val = 4 * t.val + (x 0).val) (h1 : (k 1).val = (x 1).val) (h2 : (k 2).val = (x 2).val) :
    (iblk m c 0 t : Vec Ideal S4x1024x91 .f32) x
      = (m ((c : Thread nD τ).loc main_arg0) : S16x1024x91.Idx → EReal) k := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 4 + 1 * (x 0).val = (k 0).val; omega
  | ⟨1, _⟩ => show win0_0.index t (1 : Fin 3) * 1024 + 1 * (x 1).val = (k 1).val; omega
  | ⟨2, _⟩ => show win0_0.index t (2 : Fin 3) * 91 + 1 * (x 2).val = (k 2).val; omega

/-- Point `t`'s block of predicted boxes is images `4t … 4t+3` of the box argument, coordinate axis before the
    query axis. -/
theorem boxes_block (c : Dev nD) (t : Fin cfg0.N) (x : S4x4x1024.Idx) (k : S16x1024x4.Idx)
    (h0 : (k 0).val = 4 * t.val + (x 0).val) (h1 : (k 2).val = (x 1).val) (h2 : (k 1).val = (x 2).val) :
    (iblk m c 1 t : Vec Ideal S4x4x1024 .f32) x
      = (m ((c : Thread nD τ).loc main_arg1) : S16x1024x4.Idx → EReal) k := by
  obtain ⟨-, -, -, e0, e1, e2, -⟩ := idx_facts t
  unfold iblk
  rw [View.read_apply]
  show V m c main_v1 _ = _
  refine boxes_staged_apply m c _ k ?_ ?_ ?_
  · show (k 0).val = win0_1.index t (0 : Fin 3) * 4 + 1 * (x 0).val; omega
  · show (k 2).val = win0_1.index t (1 : Fin 3) * 4 + 1 * (x 1).val; omega
  · show (k 1).val = win0_1.index t (2 : Fin 3) * 1024 + 1 * (x 2).val; omega

/-- Point `t`'s block of labels is images `4t … 4t+3` of the label argument. -/
theorem labels_block (c : Dev nD) (t : Fin cfg0.N) (x : S4x1x128.Idx) (k : S16x128.Idx)
    (h0 : (k 0).val = 4 * t.val + (x 0).val) (h1 : (k 1).val = (x 2).val) :
    (iblk m c 2 t : Vec Ideal S4x1x128 .i32) x
      = (m ((c : Thread nD τ).loc main_arg2) : S16x128.Idx → BitVec 32) k := by
  obtain ⟨-, -, -, -, -, -, e0, e1, e2, -⟩ := idx_facts t
  unfold iblk
  rw [View.read_apply]
  show V m c main_v0 _ = _
  refine labels_staged_apply m c _ k ?_ ?_
  · show (k 0).val = win0_2.index t (0 : Fin 3) * 4 + 1 * (x 0).val; omega
  · show (k 1).val = win0_2.index t (2 : Fin 3) * 128 + 1 * (x 2).val; omega

/-- Point `t`'s block of target boxes is images `4t … 4t+3` of the target-box argument, coordinate axis before
    the target axis. -/
theorem tboxes_block (c : Dev nD) (t : Fin cfg0.N) (x : S4x4x128.Idx) (k : S16x128x4.Idx)
    (h0 : (k 0).val = 4 * t.val + (x 0).val) (h1 : (k 2).val = (x 1).val) (h2 : (k 1).val = (x 2).val) :
    (iblk m c 3 t : Vec Ideal S4x4x128 .f32) x
      = (m ((c : Thread nD τ).loc main_arg3) : S16x128x4.Idx → EReal) k := by
  obtain ⟨-, -, -, -, -, -, -, -, -, e0, e1, e2, -⟩ := idx_facts t
  unfold iblk
  rw [View.read_apply]
  show V m c main_v2 _ = _
  refine tboxes_staged_apply m c _ k ?_ ?_ ?_
  · show (k 0).val = win0_3.index t (0 : Fin 3) * 4 + 1 * (x 0).val; omega
  · show (k 2).val = win0_3.index t (1 : Fin 3) * 4 + 1 * (x 1).val; omega
  · show (k 1).val = win0_3.index t (2 : Fin 3) * 128 + 1 * (x 2).val; omega

/-- An entry of the block point `t` writes is the cost array's entry at the array index over it: image
    `4t + bb`, the same query, the same target. -/
theorem written_entry (c : Dev nD) (t : Fin cfg0.N) (bb : Fin 4) (q : Fin 1024) (tt : Fin 128) (i : S16x1024x128.Idx)
    (h0 : (i 0).val = 4 * t.val + bb.val) (h1 : (i 1).val = q.val) (h2 : (i 2).val = tt.val) :
    out0_4 (iblk m c 0 t) (iblk m c 1 t) (iblk m c 2 t) (iblk m c 3 t)
        (ix3 (n0 := 4) (n1 := 1024) (n2 := 128) bb q tt)
      = cost (m ((c : Thread nD τ).loc main_arg0)) (m ((c : Thread nD τ).loc main_arg1))
          (m ((c : Thread nD τ).loc main_arg2)) (m ((c : Thread nD τ).loc main_arg3)) i := by
  refine (body_entry _ _ _ _ bb q tt).trans ?_
  show costAt _ _ _ _ = costAt _ _ _ _
  congr 1
  · funext k
    exact scores_block m c t (ix3 (n0 := 4) (n1 := 1024) (n2 := 91) bb q k)
      (ix3 (n0 := 16) (n1 := 1024) (n2 := 91) (i 0) (i 1) k) h0 h1 rfl
  · funext ch
    exact boxes_block m c t (ix3 (n0 := 4) (n1 := 4) (n2 := 1024) bb ch q)
      (ix3 (n0 := 16) (n1 := 1024) (n2 := 4) (i 0) (i 1) ch) h0 rfl h1
  · funext ch
    exact tboxes_block m c t (ix3 (n0 := 4) (n1 := 4) (n2 := 128) bb ch tt)
      (ix3 (n0 := 16) (n1 := 128) (n2 := 4) (i 0) (i 2) ch) h0 rfl h2
  · exact labels_block m c t (ix3 (n0 := 4) (n1 := 1) (n2 := 128) bb (0 : Fin 1) tt)
      (ix2 (n0 := 16) (n1 := 128) (i 0) (i 2)) h0 h2

/-- What point `t` writes back is block `t` of the cost array of the arguments. -/
theorem flushed_eq (c : Dev nD) (t : Fin cfg0.N) :
    (dats m 0 c).flushed 4 t = ((cfg0.win 4).blk t).view.read (Elt Ideal)
      (cost (m ((c : Thread nD τ).loc main_arg0)) (m ((c : Thread nD τ).loc main_arg1))
        (m ((c : Thread nD τ).loc main_arg2)) (m ((c : Thread nD τ).loc main_arg3))) := by
  obtain ⟨-, -, -, -, -, -, -, -, -, -, -, -, e0, e1, e2⟩ := idx_facts t
  rw [Value.flushed4]
  funext j
  obtain ⟨bb, q, tt, rfl⟩ : ∃ (bb : Fin 4) (q : Fin 1024) (tt : Fin 128), j = ix3 bb q tt :=
    ⟨j 0, j 1, j 2, eq_ix3 j⟩
  show out0_4 (iblk m c 0 t) (iblk m c 1 t) (iblk m c 2 t) (iblk m c 3 t) (ix3 bb q tt)
    = cost _ _ _ _ (((cfg0.win 4).blk t).view.emb (ix3 bb q tt))
  refine written_entry m c t bb q tt _ ?_ ?_ ?_
  · show win0_4.index t (0 : Fin 3) * 4 + 1 * bb.val = 4 * t.val + bb.val; omega
  · show win0_4.index t (1 : Fin 3) * 1024 + 1 * q.val = q.val; omega
  · show win0_4.index t (2 : Fin 3) * 128 + 1 * tt.val = tt.val; omega

/-! ## The four blocks make up the array -/

/-- An index of the cost array is in point `t`'s block iff each coordinate is in the block's range on its axis. -/
theorem mem_blk (t : Fin cfg0.N) (i : S16x1024x128.Idx) :
    i ∈ ((cfg0.win 4).blk t).view.set ↔ ∀ a : Fin 3, win0_4.index t a * S4x1024x128.size a ≤ (i a).val
      ∧ (i a).val < win0_4.index t a * S4x1024x128.size a + S4x1024x128.size a := by
  show i ∈ ((View.whole main_v3).slice (win0_4.rect t)).set ↔ _
  rw [View.set_slice_whole, Rect.mem_set_unit]
  exact Iff.rfl

/-- Image `b` is written by point `b / 4`: every index of the cost array is in some point's block. -/
theorem covered (i : S16x1024x128.Idx) :
    ∃ t : Fin cfg0.N, (cfg0.win 4).flush t = true ∧ i ∈ ((cfg0.win 4).blk t).view.set := by
  have hi0 : (i 0).val < 16 := (i 0).isLt
  have hi1 : (i 1).val < 1024 := (i 1).isLt
  have hi2 : (i 2).val < 128 := (i 2).isLt
  have hN : cfg0.N = 4 := N_0
  obtain ⟨t, ht⟩ : ∃ t : Fin cfg0.N, t.val = (i 0).val / 4 := ⟨⟨(i 0).val / 4, by rw [hN]; omega⟩, rfl⟩
  obtain ⟨-, -, -, -, -, -, -, -, -, -, -, -, e0, e1, e2⟩ := idx_facts t
  refine ⟨t, flush0_4 t, ?_⟩
  rw [mem_blk]
  intro a
  match a with
  | ⟨0, _⟩ =>
    show win0_4.index t (0 : Fin 3) * 4 ≤ (i 0).val ∧ (i 0).val < win0_4.index t (0 : Fin 3) * 4 + 4
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 128 ≤ (i 2).val ∧ (i 2).val < win0_4.index t (2 : Fin 3) * 128 + 128
    omega

/-- After the run the result array is the cost array of the arguments as launched. -/
theorem final (c : Dev nD) :
    (dats m 0 c).arrAt 4 cfg0.N
      = cost (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c t) covered

/-- The kernel's run: every weakly fair execution ends with the result array at `cost` of the arguments, the
    arguments unchanged. -/
theorem run : θ_run defs (onTc (τ := τ) (main (F := Ideal))) ⟨m, fun _ => 0, ρ⟩ fun r => ∀ c : Dev nD,
      r.2.mem ((c : Thread nD τ).loc main_v3)
          = cost (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.lean ====
/-
  The matching-cost kernel against its reference, over the extended reals.

  Both programs compute, for image b, query q and target t,
      5 · ‖box(b,q) − tbox(b,t)‖₁  −  softmax(logits(b,q,·))[label(b,t)].
  The kernel takes four images per grid point, forms the row softmax of the scores, gathers the label's class by a
  product with a one-hot matrix built from a comparison with the class iota, and adds the four coordinate distances
  from the left. The reference forms the full [16·1024, 16·128] cost of every query against every target — the class
  column by a gather at the label, the distance by a sum over the four coordinates, the two combined as
  5·d + 1·(−p) — and then keeps the 16 diagonal blocks by a second gather.

  The two agree entry by entry exactly where the label word names a class: for a word outside [0, 91) the kernel's
  one-hot row is empty and its class term is 0, while the reference's gather clamps the index into the table. The
  precondition therefore asks, beside finite floats, that every label lie in [0, 91); `labels_in_range` reads that
  off the printed predicate. Under it both results are `cost` of the arguments (Proof/CostSpec.lean): the kernel's by
  `block_is_cost` at each block entry and the cover of the array by the four grid points' blocks
  (`ArrayValue.run`), the reference's operation by operation (`ref_is_cost`).

  The frames of the two kernel programs are the generated ones; the reference's frame is its generated run with the
  result dropped; the idealization rewrote nothing, so `preserves` is `True`.
-/
import proofs.«418324_j84490596647596_3_alg».proof.Defs
import proofs.«418324_j84490596647596_3_alg».proof.Proof.Gen.Kernel
import proofs.«418324_j84490596647596_3_alg».proof.Proof.Gen.Kernel.Skeleton
import proofs.«418324_j84490596647596_3_alg».proof.Proof.Gen.Kernel.Launch
import proofs.«418324_j84490596647596_3_alg».proof.Proof.Gen.Kernel.Points
import proofs.«418324_j84490596647596_3_alg».proof.Proof.Gen.Kernel.Frame
import proofs.«418324_j84490596647596_3_alg».proof.Proof.Gen.KernelIdeal
import proofs.«418324_j84490596647596_3_alg».proof.Proof.Gen.KernelIdeal.Skeleton
import proofs.«418324_j84490596647596_3_alg».proof.Proof.Gen.KernelIdeal.Launch
import proofs.«418324_j84490596647596_3_alg».proof.Proof.Gen.KernelIdeal.Points
import proofs.«418324_j84490596647596_3_alg».proof.Proof.Gen.KernelIdeal.Frame
import proofs.«418324_j84490596647596_3_alg».proof.Proof.Gen.ReferenceIdeal
import proofs.«418324_j84490596647596_3_alg».proof.Proof.Gen.KernelIdeal.Value
import proofs.«418324_j84490596647596_3_alg».proof.Proof.Gen.ReferenceIdeal.Run
import proofs.«418324_j84490596647596_3_alg».proof.Proof.Gen.ReferenceIdeal.Read
import proofs.«418324_j84490596647596_3_alg».proof.Proof.Gen.Pre_finite_inputs
import proofs.«418324_j84490596647596_3_alg».proof.Proof.CostSpec
import proofs.«418324_j84490596647596_3_alg».proof.Proof.LabelRange
import proofs.«418324_j84490596647596_3_alg».proof.Proof.RefCost
import proofs.«418324_j84490596647596_3_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the cost array of those arguments: the kernel
    whatever the labels are, the reference because the precondition keeps every label inside the class range. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v51_eq _ _ _ _).trans
    (Cert.ReferenceIdeal.RefCost.ref_is_cost _ _ _ _ (Cert.LabelRange.labels_in_range _ _ _ _ (hpre c)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
